-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8192 : Shape := ⟨2, ![64, 8192]⟩
abbrev S8192x9248 : Shape := ⟨2, ![8192, 9248]⟩
abbrev S9248x8192 : Shape := ⟨2, ![9248, 8192]⟩
abbrev S_ : Shape := ⟨0, ![]⟩

class Facts : Prop where
  bcast_S_S64x8192 : S_.BroadcastsInDim S64x8192 (![] : Fin 0 → Fin S64x8192.rank)
  reducesTo_S64x8192_S_d0_1 : S64x8192.ReducesTo [0, 1] S_
  h_S_ : 0 < S_.numel
  bcast_S_S8192x9248 : S_.BroadcastsInDim S8192x9248 (![] : Fin 0 → Fin S8192x9248.rank)
  reducesTo_S8192x9248_S_d0_1 : S8192x9248.ReducesTo [0, 1] S_
  bcast_S_S9248x8192 : S_.BroadcastsInDim S9248x8192 (![] : Fin 0 → Fin S9248x8192.rank)
  reducesTo_S9248x8192_S_d0_1 : S9248x8192.ReducesTo [0, 1] S_

variable [Facts]

def fn {F : FTy → Type} [FloatOps F] (main_arg0 : FVec F S64x8192 .f32) (main_arg1 : FVec F S8192x9248 .f32) (main_arg2 : FVec F S9248x8192 .f32) : IVec S_ 1 :=
  let main_v0 : FVec F S64x8192 .f32 := Host.absf main_arg0
  let main_cst : FVec F S_ .f32 := constant S_ .f32 0x7F800000#32
  let main_v1 : FVec F S64x8192 .f32 := broadcastInDim S64x8192 ![] bcast_S_S64x8192 main_cst
  let main_v2 : IVec S64x8192 1 := cmpf .olt main_v0 main_v1
  let main_c : IVec S_ 1 := constantI S_ 1 1#1
  let main_v3 : IVec S_ 1 := (fun x v => Host.reduce IntOp.andi x v reducesTo_S64x8192_S_d0_1 h_S_) main_v2 main_c
  let main_v4 : FVec F S8192x9248 .f32 := Host.absf main_arg1
  let main_cst_0 : FVec F S_ .f32 := constant S_ .f32 0x7F800000#32
  let main_v5 : FVec F S8192x9248 .f32 := broadcastInDim S8192x9248 ![] bcast_S_S8192x9248 main_cst_0
  let main_v6 : IVec S8192x9248 1 := cmpf .olt main_v4 main_v5
  let main_c_1 : IVec S_ 1 := constantI S_ 1 1#1
  let main_v7 : IVec S_ 1 := (fun x v => Host.reduce IntOp.andi x v reducesTo_S8192x9248_S_d0_1 h_S_) main_v6 main_c_1
  let main_v8 : IVec S_ 1 := andi main_v3 main_v7
  let main_v9 : FVec F S9248x8192 .f32 := Host.absf main_arg2
  let main_cst_2 : FVec F S_ .f32 := constant S_ .f32 0x7F800000#32
  let main_v10 : FVec F S9248x8192 .f32 := broadcastInDim S9248x8192 ![] bcast_S_S9248x8192 main_cst_2
  let main_v11 : IVec S9248x8192 1 := cmpf .olt main_v9 main_v10
  let main_c_3 : IVec S_ 1 := constantI S_ 1 1#1
  let main_v12 : IVec S_ 1 := (fun x v => Host.reduce IntOp.andi x v reducesTo_S9248x8192_S_d0_1 h_S_) main_v11 main_c_3
  let main_v13 : IVec S_ 1 := andi main_v8 main_v12
  main_v13
-- ==== Kernel.lean ====
abbrev S64x8192 : Shape := ⟨2, ![64, 8192]⟩
abbrev S8192x9248 : Shape := ⟨2, ![8192, 9248]⟩
abbrev S9248x8192 : Shape := ⟨2, ![9248, 8192]⟩
abbrev S64x9248 : Shape := ⟨2, ![64, 9248]⟩
abbrev S64x256 : Shape := ⟨2, ![64, 256]⟩
abbrev S9248x256 : Shape := ⟨2, ![9248, 256]⟩
abbrev S256x9248 : Shape := ⟨2, ![256, 9248]⟩

abbrev nBuf : Space → Nat
  | .hbm => 5
  | .vmem => 12
  | .smem => 0
  | _ => 0

abbrev bufTy : (tb : Table) → Fin (tcTables nBuf tb) → BufTy
  | .hbm, ⟨0, _⟩ => ⟨S64x8192, .f32⟩
  | .hbm, ⟨1, _⟩ => ⟨S8192x9248, .f32⟩
  | .hbm, ⟨2, _⟩ => ⟨S9248x8192, .f32⟩
  | .hbm, ⟨3, _⟩ => ⟨S64x9248, .f32⟩
  | .hbm, ⟨4, _⟩ => ⟨S64x8192, .f32⟩
  | .local _ .vmem, ⟨0, _⟩ => ⟨S64x256, .f32⟩
  | .local _ .vmem, ⟨1, _⟩ => ⟨S64x256, .f32⟩
  | .local _ .vmem, ⟨2, _⟩ => ⟨S9248x256, .f32⟩
  | .local _ .vmem, ⟨3, _⟩ => ⟨S9248x256, .f32⟩
  | .local _ .vmem, ⟨4, _⟩ => ⟨S64x9248, .f32⟩
  | .local _ .vmem, ⟨5, _⟩ => ⟨S64x9248, .f32⟩
  | .local _ .vmem, ⟨6, _⟩ => ⟨S64x9248, .f32⟩
  | .local _ .vmem, ⟨7, _⟩ => ⟨S256x9248, .f32⟩
  | .local _ .vmem, ⟨8, _⟩ => ⟨S256x9248, .f32⟩
  | .local _ .vmem, ⟨9, _⟩ => ⟨S64x256, .f32⟩
  | .local _ .vmem, ⟨10, _⟩ => ⟨S64x256, .f32⟩
  | .local _ .vmem, ⟨11, _⟩ => ⟨S64x256, .f32⟩
  | _, _ => ⟨S64x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨2, ![1, 32], ![false, false]⟩

def k0_cond2 (i : grid0.Coords) : BitVec 1 :=
  let arg1 : BitVec 32 := BitVec.ofNat 32 (i 1).val
  let c31_i32 : BitVec 32 := 31#32
  let v13 : BitVec 1 := Scalar.cmpi .eq arg1 c31_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S9248x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x9248 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev grid1 : Pipeline.Grid := ⟨2, ![32, 1], ![false, false]⟩

def k1_cond2 (i : grid1.Coords) : BitVec 1 :=
  let arg1 : BitVec 32 := BitVec.ofNat 32 (i 1).val
  let c0_i32_8 : BitVec 32 := 0#32
  let v14 : BitVec 1 := Scalar.cmpi .eq arg1 c0_i32_8
  let v15 : BitVec 32 := Scalar.extui v14
  let c0_i32_9 : BitVec 32 := 0#32
  let v16 : BitVec 1 := Scalar.cmpi .ne v15 c0_i32_9
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 1 → Memref sig .tc .vmem S64x9248 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, true]

abbrev stage1_1 : Fin 2 → Memref sig .tc .vmem S256x9248 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S64x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S64x9248_S64x9248_0_0 : ∀ a, (![0, 0] : Fin 2 → Nat) a + S64x9248.size a ≤ S64x9248.size a
  h_S64x9248 : 0 < S64x9248.numel
  shapeCasts_S64x9248_S64x9248 : S64x9248.ShapeCasts S64x9248
  inb_S64x256_S64x256_0_0 : ∀ a, (![0, 0] : Fin 2 → Nat) a + S64x256.size a ≤ S64x256.size a
  h_S64x256 : 0 < S64x256.numel
  bitsLt_bf16_f32 : FTy.bits .bf16 < FTy.bits .f32
  inb_S9248x256_S9248x256_0_0 : ∀ a, (![0, 0] : Fin 2 → Nat) a + S9248x256.size a ≤ S9248x256.size a
  h_S9248x256 : 0 < S9248x256.numel
  shapeCasts_S64x256_S64x256 : S64x256.ShapeCasts S64x256
  inb_S256x9248_S256x9248_0_0 : ∀ a, (![0, 0] : Fin 2 → Nat) a + S256x9248.size a ≤ S256x9248.size a
  h_S256x9248 : 0 < S256x9248.numel
  dot_S64x256_S9248x256_S64x9248_1_1_0_0_n_n_wf : DotDims.WF S64x256 S9248x256 S64x9248 [1] [1] [0] [0] [] []
  dot_S64x9248_S256x9248_S64x256_1_1_0_0_n_n_wf : DotDims.WF S64x9248 S256x9248 S64x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x256.size a ≤ S64x8192.size a
  hwx0_0 : ∀ i : grid0.Coords, EltTy.bits .f32 = 32 ∨ (Rect.block (s := S64x8192) S64x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S9248x256.size a ≤ S9248x8192.size a
  hwx0_1 : ∀ i : grid0.Coords, EltTy.bits .f32 = 32 ∨ (Rect.block (s := S9248x8192) S9248x256.size (cc0_transform_1 i) (hinb0_1 i)).WholeWords (EltTy.packing .f32)
  hstage0_2 : ∀ j, (stage0_2 j).IsWhole
  nbuf0_2 : grid0.bufCount reads0_2 false = 1
  hreads0_2 : ∀ i i' : grid0.Coords, (∀ a, reads0_2 a = true → i a = i' a) → cc0_transform_2 i = cc0_transform_2 i'
  hinb0_2 : ∀ (i : grid0.Coords) a, (cc0_transform_2 i a + 1) * S64x9248.size a ≤ S64x9248.size a
  hwx0_2 : ∀ i : grid0.Coords, EltTy.bits .f32 = 32 ∨ (Rect.block (s := S64x9248) S64x9248.size (cc0_transform_2 i) (hinb0_2 i)).WholeWords (EltTy.packing .f32)
  hrank1 : 0 < grid1.rank
  hstage1_0 : ∀ j, (stage1_0 j).IsWhole
  nbuf1_0 : grid1.bufCount reads1_0 false = 1
  hreads1_0 : ∀ i i' : grid1.Coords, (∀ a, reads1_0 a = true → i a = i' a) → cc1_transform_0 i = cc1_transform_0 i'
  hinb1_0 : ∀ (i : grid1.Coords) a, (cc1_transform_0 i a + 1) * S64x9248.size a ≤ S64x9248.size a
  hwx1_0 : ∀ i : grid1.Coords, EltTy.bits .f32 = 32 ∨ (Rect.block (s := S64x9248) S64x9248.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x9248.size a ≤ S8192x9248.size a
  hwx1_1 : ∀ i : grid1.Coords, EltTy.bits .f32 = 32 ∨ (Rect.block (s := S8192x9248) S256x9248.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S64x256.size a ≤ S64x8192.size a
  hwx1_2 : ∀ i : grid1.Coords, EltTy.bits .f32 = 32 ∨ (Rect.block (s := S64x8192) S64x256.size (cc1_transform_2 i) (hinb1_2 i)).WholeWords (EltTy.packing .f32)

variable [Facts₀]

def dot_S64x256_S9248x256_S64x9248_1_1_0_0_n_n : DotDims S64x256 S9248x256 S64x9248 where
  lhsContracting := [1]
  rhsContracting := [1]
  lhsNonContracting := [0]
  rhsNonContracting := [0]
  lhsBatch := []
  rhsBatch := []
  wf := dot_S64x256_S9248x256_S64x9248_1_1_0_0_n_n_wf
def dot_S64x9248_S256x9248_S64x256_1_1_0_0_n_n : DotDims S64x9248 S256x9248 S64x256 where
  lhsContracting := [1]
  rhsContracting := [1]
  lhsNonContracting := [0]
  rhsNonContracting := [0]
  lhsBatch := []
  rhsBatch := []
  wf := dot_S64x9248_S256x9248_S64x256_1_1_0_0_n_n_wf

abbrev win0_0 : Pipeline.Window sig grid0 :=
  Pipeline.Window.ofSpec (Memref.whole main_arg0) S64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S9248x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x9248.size cc0_transform_2 reads0_2 true false 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v0) S64x9248.size cc1_transform_0 reads1_0 false false 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S256x9248.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S64x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S64x8192 : Shape := ⟨2, ![64, 8192]⟩
abbrev S8192x9248 : Shape := ⟨2, ![8192, 9248]⟩
abbrev S9248x8192 : Shape := ⟨2, ![9248, 8192]⟩
abbrev S64x9248 : Shape := ⟨2, ![64, 9248]⟩

abbrev nBuf : Space → Nat
  | .hbm => 7
  | .vmem => 0
  | .smem => 0
  | _ => 0

abbrev bufTy : (tb : Table) → Fin (tcTables nBuf tb) → BufTy
  | .hbm, ⟨0, _⟩ => ⟨S64x8192, .f32⟩
  | .hbm, ⟨1, _⟩ => ⟨S8192x9248, .f32⟩
  | .hbm, ⟨2, _⟩ => ⟨S9248x8192, .f32⟩
  | .hbm, ⟨3, _⟩ => ⟨S8192x9248, .f32⟩
  | .hbm, ⟨4, _⟩ => ⟨S64x9248, .f32⟩
  | .hbm, ⟨5, _⟩ => ⟨S9248x8192, .f32⟩
  | .hbm, ⟨6, _⟩ => ⟨S64x8192, .f32⟩
  | _, _ => ⟨S64x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  transposes_S9248x8192_S8192x9248_1_0 : S9248x8192.Transposes [1, 0] S8192x9248
  transposes_S8192x9248_S9248x8192_1_0 : S8192x9248.Transposes [1, 0] S9248x8192
  dot_S64x8192_S8192x9248_S64x9248_1_0_0_1_n_n_wf : DotDims.WF S64x8192 S8192x9248 S64x9248 [1] [0] [0] [1] [] []
  dot_S64x9248_S9248x8192_S64x8192_1_0_0_1_n_n_wf : DotDims.WF S64x9248 S9248x8192 S64x8192 [1] [0] [0] [1] [] []

variable [Facts₀]

def dot_S64x8192_S8192x9248_S64x9248_1_0_0_1_n_n : DotDims S64x8192 S8192x9248 S64x9248 where
  lhsContracting := [1]
  rhsContracting := [0]
  lhsNonContracting := [0]
  rhsNonContracting := [1]
  lhsBatch := []
  rhsBatch := []
  wf := dot_S64x8192_S8192x9248_S64x9248_1_0_0_1_n_n_wf
def dot_S64x9248_S9248x8192_S64x8192_1_0_0_1_n_n : DotDims S64x9248 S9248x8192 S64x8192 where
  lhsContracting := [1]
  rhsContracting := [0]
  lhsNonContracting := [0]
  rhsNonContracting := [1]
  lhsBatch := []
  rhsBatch := []
  wf := dot_S64x9248_S9248x8192_S64x8192_1_0_0_1_n_n_wf

class Facts : Prop extends Facts₀ where

variable [Facts]
-- ==== Proof.LibWholeStores.lean ====
import Idealize.ShloMosaic.Lib.Pipeline.Value
import Idealize.ShloMosaic.Lib.Pipeline.FrameBody

/-!
Whole-buffer stores read back.

A store through the rectangle that starts at zero offsets and spans the whole shape replaces the buffer's
contents. So, whatever was stored before it and whatever the buffer held: the buffer afterwards reads as the
stored value, and so does a load through the same rectangle.
-/

namespace Cert.LibWholeStores

open Idealize.ShloMosaic

variable {Val : EltTy → Type} {S : Shape} {e : EltTy}

/-- Every index lies in the whole-shape rectangle, so a list of stores headed by one through it covers the shape. -/
theorem cover_cons_unit_zero {off : Fin S.rank → Nat} (h : off = fun _ => 0) (inb : ∀ a, off a + S.size a ≤ S.size a)
    (w : S.Idx → Val e) (L : List (View.Piece Val S e)) (y : S.Idx) :
    ∃ p ∈ ((⟨Rect.unit off S.size inb, w⟩ : View.Piece Val S e) :: L), y ∈ p.1.set :=
  ⟨_, List.mem_cons_self, View.mem_set_unit_zero h inb y⟩

/-- After stores the LAST of which is through the whole-shape rectangle, the buffer reads as that store's value. -/
theorem read_writes_cons_unit_zero [∀ e, Nonempty (Val e)] {sig : RefSig} {κ : Kind} {sp : Space}
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (cover_cons_unit_zero h inb w L), View.canon_cons_unit_zero h inb w L]

/-- A load through the whole-shape rectangle after such stores reads that store's value. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (cover_cons_unit_zero h inb w L), View.canon_cons_unit_zero h inb w L,
    View.ld_unit_zero h inb]

/-- The offsets `![0, 0]` are the zero offsets. -/
theorem zero2 : (![0, 0] : Fin 2 → Nat) = fun _ => 0 := by
  funext a; fin_cases a <;> rfl

end Cert.LibWholeStores
-- ==== Proof.Kernel.Body0.lean ====
import proofs.«150913_j67465346285598_1_alg».proof.Proof.Gen.Kernel.Launch
import proofs.«150913_j67465346285598_1_alg».proof.Proof.Gen.Kernel.Skeleton
import proofs.«150913_j67465346285598_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import proofs.«150913_j67465346285598_1_alg».proof.Proof.LibWholeStores

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.LibWholeStores

variable {F : FTy → Type} [FloatOps F]

local notation "𝕄" => MT nD τ sig Unit (Elt F) ℕ (UR sig nD τ) ℕ

/-! ## The first product's body: its two conditions over the grid

The grid is 1 × 32; point `t` is the `t`-th block of 256 along the contracted axis. The accumulator is reset at
the first point only, and copied to the output block at the last point only. -/

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)
abbrev cond0_1 (i : grid0.Coords) : Prop := k0_cond2 i = 1#1
theorem hcond0_1 : ∀ t : Fin cfg0.N, cond0_1 (grid0.coords t) ↔ t.val = 31 :=
  (by decide +kernel : ∀ t : Fin grid0.N, cond0_1 (grid0.coords t) ↔ t.val = 31)

/-- Where the output window is idle: at every point but the last. -/
theorem idle0_2_iff : ∀ t : Fin cfg0.N, cfg0.idle 2 (grid0.coords t) = true ↔ t.val ≠ 31 :=
  (by decide +kernel : ∀ t : Fin grid0.N, cfg0.idle 2 (grid0.coords t) = true ↔ t.val ≠ 31)
theorem live0_0 : ∀ t : Fin cfg0.N, cfg0.idle 0 (grid0.coords t) = false := by decide +kernel
theorem live0_1 : ∀ t : Fin cfg0.N, cfg0.idle 1 (grid0.coords t) = false := by decide +kernel

set_option maxHeartbeats 1000000 in
/-- At the first point: the accumulator is zeroed, then the block product is added; the output block is left alone. -/
theorem sound_kernel0_first (c : Dev nD) (E : Set ℕ) (i : grid0.Coords) (hc0 : cond0_0 i) (hc1 : ¬cond0_1 i)
    (arg2 : Memref sig .tc .vmem S64x256 .f32) (harg2 : arg2.IsWhole) (arg3 : Memref sig .tc .vmem S9248x256 .f32) (harg3 : arg3.IsWhole)
    (arg4 : Memref sig .tc .vmem S64x9248 .f32) (harg4 : arg4.IsWhole) (arg5 : Memref sig .tc .vmem S64x9248 .f32) (harg5 : arg5.IsWhole)
    (x0 : Vec F S64x256 .f32) (x1 : Vec F S9248x256 .f32) (xo : Vec F S64x9248 .f32) (K : PUnit → sProp 𝕄) :
    iprop(owns (c : Thread nD τ) arg2 fullShare x0 ∗ owns (c : Thread nD τ) arg3 fullShare x1
        ∗ owns (c : Thread nD τ) arg4 fullShare xo ∗ (∃ d, owns (c : Thread nD τ) arg5 fullShare d)
        ∗ (iprop(owns (c : Thread nD τ) arg2 fullShare x0 ∗ owns (c : Thread nD τ) arg3 fullShare x1
            ∗ owns (c : Thread nD τ) arg4 fullShare xo
            ∗ owns (c : Thread nD τ) arg5 fullShare (k0_pay2 x0 x1 (k0_pay1 (F := F)))) -∗ K ⟨⟩))
      ⊢ wp frame (wpE (defs₀ (F := F)) Variants.none c none) E (cc0__matmul_bT_kernel i arg2 harg2 arg3 harg3 arg4 harg4 arg5 harg5) K := by
  simp only [cc0__matmul_bT_kernel_eq_skeleton]; unfold cc0__matmul_bT_kernel_skel
  unfold owns
  iintro ⟨⟨%f0, %hf0, H0⟩, ⟨%f1, %hf1, H1⟩, ⟨%f4, %hf4, H4⟩, ⟨%d5, %f5, -, H5⟩, Hk⟩
  obtain rfl := harg2.eq_unread hf0; obtain rfl := harg3.eq_unread hf1; obtain rfl := harg4.eq_unread hf4
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; · ipureintro; exact harg4.read_unread _
    iexact H4
  · iexists _; isplitr
    swap; · iexact H5
    ipureintro
    sl_unfold_words
    rw [read_writes_cons_unit_zero _ _ zero2, readCov_cons_unit_zero _ zero2,
      View.readAt_eq_ld, View.readAt_eq_ld, harg2.read_unread, harg3.read_unread,
      View.ld_unit_zero zero2, View.ld_unit_zero zero2]

set_option maxHeartbeats 1000000 in
/-- At a middle point: the block product is added to what the accumulator held; the output block is left alone. -/
theorem sound_kernel0_mid (c : Dev nD) (E : Set ℕ) (i : grid0.Coords) (hc0 : ¬cond0_0 i) (hc1 : ¬cond0_1 i)
    (arg2 : Memref sig .tc .vmem S64x256 .f32) (harg2 : arg2.IsWhole) (arg3 : Memref sig .tc .vmem S9248x256 .f32) (harg3 : arg3.IsWhole)
    (arg4 : Memref sig .tc .vmem S64x9248 .f32) (harg4 : arg4.IsWhole) (arg5 : Memref sig .tc .vmem S64x9248 .f32) (harg5 : arg5.IsWhole)
    (x0 : Vec F S64x256 .f32) (x1 : Vec F S9248x256 .f32) (xo : Vec F S64x9248 .f32) (xs : Vec F S64x9248 .f32) (K : PUnit → sProp 𝕄) :
    iprop(owns (c : Thread nD τ) arg2 fullShare x0 ∗ owns (c : Thread nD τ) arg3 fullShare x1
        ∗ owns (c : Thread nD τ) arg4 fullShare xo ∗ owns (c : Thread nD τ) arg5 fullShare xs
        ∗ (iprop(owns (c : Thread nD τ) arg2 fullShare x0 ∗ owns (c : Thread nD τ) arg3 fullShare x1
            ∗ owns (c : Thread nD τ) arg4 fullShare xo
            ∗ owns (c : Thread nD τ) arg5 fullShare (k0_pay2 x0 x1 xs)) -∗ K ⟨⟩))
      ⊢ wp frame (wpE (defs₀ (F := F)) Variants.none c none) E (cc0__matmul_bT_kernel i arg2 harg2 arg3 harg3 arg4 harg4 arg5 harg5) K := by
  simp only [cc0__matmul_bT_kernel_eq_skeleton]; unfold cc0__matmul_bT_kernel_skel
  unfold owns
  iintro ⟨⟨%f0, %hf0, H0⟩, ⟨%f1, %hf1, H1⟩, ⟨%f4, %hf4, H4⟩, ⟨%f5, %hf5, H5⟩, Hk⟩
  obtain rfl := harg2.eq_unread hf0; obtain rfl := harg3.eq_unread hf1; obtain rfl := harg4.eq_unread hf4
  obtain rfl := harg5.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; · ipureintro; exact harg4.read_unread _
    iexact H4
  · iexists _; isplitr
    swap; · iexact H5
    ipureintro
    sl_unfold_words
    rw [read_writes_cons_unit_zero _ _ zero2,
      View.readAt_eq_ld, View.readAt_eq_ld, View.readAt_eq_ld, harg2.read_unread, harg3.read_unread, harg5.read_unread,
      View.ld_unit_zero zero2, View.ld_unit_zero zero2, View.ld_unit_zero zero2]

set_option maxHeartbeats 1000000 in
/-- At the last point: the block product is added, and the accumulator is copied to the output block. -/
theorem sound_kernel0_last (c : Dev nD) (E : Set ℕ) (i : grid0.Coords) (hc0 : ¬cond0_0 i) (hc1 : cond0_1 i)
    (arg2 : Memref sig .tc .vmem S64x256 .f32) (harg2 : arg2.IsWhole) (arg3 : Memref sig .tc .vmem S9248x256 .f32) (harg3 : arg3.IsWhole)
    (arg4 : Memref sig .tc .vmem S64x9248 .f32) (harg4 : arg4.IsWhole) (arg5 : Memref sig .tc .vmem S64x9248 .f32) (harg5 : arg5.IsWhole)
    (x0 : Vec F S64x256 .f32) (x1 : Vec F S9248x256 .f32) (xs : Vec F S64x9248 .f32) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare xs
        ∗ (iprop(owns (c : Thread nD τ) arg2 fullShare x0 ∗ owns (c : Thread nD τ) arg3 fullShare x1
            ∗ owns (c : Thread nD τ) arg4 fullShare (k0_pay2 x0 x1 xs)
            ∗ owns (c : Thread nD τ) arg5 fullShare (k0_pay2 x0 x1 xs)) -∗ K ⟨⟩))
      ⊢ wp frame (wpE (defs₀ (F := F)) Variants.none c none) E (cc0__matmul_bT_kernel i arg2 harg2 arg3 harg3 arg4 harg4 arg5 harg5) K := by
  simp only [cc0__matmul_bT_kernel_eq_skeleton]; unfold cc0__matmul_bT_kernel_skel
  unfold owns
  iintro ⟨⟨%f0, %hf0, H0⟩, ⟨%f1, %hf1, H1⟩, ⟨%d4, %f4, -, H4⟩, ⟨%f5, %hf5, H5⟩, Hk⟩
  obtain rfl := harg2.eq_unread hf0; obtain rfl := harg3.eq_unread hf1
  obtain rfl := harg5.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr
    swap; · iexact H4
    ipureintro
    sl_unfold_words
    rw [read_writes_cons_unit_zero _ _ zero2, readCov_cons_unit_zero _ zero2,
      View.readAt_eq_ld, View.readAt_eq_ld, View.readAt_eq_ld, harg2.read_unread, harg3.read_unread, harg5.read_unread,
      View.ld_unit_zero zero2, View.ld_unit_zero zero2, View.ld_unit_zero zero2]
  · iexists _; isplitr
    swap; · iexact H5
    ipureintro
    sl_unfold_words
    rw [read_writes_cons_unit_zero _ _ zero2,
      View.readAt_eq_ld, View.readAt_eq_ld, View.readAt_eq_ld, harg2.read_unread, harg3.read_unread, harg5.read_unread,
      View.ld_unit_zero zero2, View.ld_unit_zero zero2, View.ld_unit_zero zero2]

end Cert.Kernel.Hand

end
-- ==== Proof.Kernel.Region0.lean ====
import proofs.«150913_j67465346285598_1_alg».proof.Proof.Kernel.Body0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.LibWholeStores

variable {F : FTy → Type} [FloatOps F]

local notation "𝕄" => MT nD τ sig Unit (Elt F) ℕ (UR sig nD τ) ℕ

/-! # The first product as a pipeline region, entered at buffer contents `V`

Point `t` of the 1 × 32 grid multiplies the `t`-th 256-column block of the left operand with the `t`-th
256-column block of the right operand (contracting those columns) and adds the result to an accumulator kept in a
scratch buffer between points; the last point copies the accumulator to the one output block, which is the whole
output array. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, for any proof data over `V` that leaves it there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Each window's current staging memref at point `t`, as the pipeline passes it, and the accumulator's scratch. -/
abbrev ms0_0 (t : Fin cfg0.N) : Memref sig .tc .vmem S64x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S9248x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x9248 .f32 := win0_2.stage (cfg0.slots t 2)
abbrev hs0_2 (t : Fin cfg0.N) : (ms0_2 t).IsWhole := hstage0_2 ((cfg0.slots t 2).cast nbuf0_2)
abbrev scM0 : Memref sig .tc .vmem S64x9248 .f32 := Memref.whole cc0_scratch0

/-- THE ACCUMULATOR after point `n`: the zero fill plus the block products of points `0 … n`, added in order. -/
def acc0 (c : Dev nD) : (n : ℕ) → n < cfg0.N → Vec F S64x9248 .f32
  | 0, h => k0_pay2 (iblk0 V c 0 ⟨0, h⟩) (iblk0 V c 1 ⟨0, h⟩) (k0_pay1 (F := F))
  | n + 1, h => k0_pay2 (iblk0 V c 0 ⟨n + 1, h⟩) (iblk0 V c 1 ⟨n + 1, h⟩) (acc0 c n (Nat.lt_of_succ_lt h))

theorem acc0_zero (c : Dev nD) (t : Fin cfg0.N) (h0 : t.val = 0) :
    acc0 V c t.val t.isLt = k0_pay2 (iblk0 V c 0 t) (iblk0 V c 1 t) (k0_pay1 (F := F)) := by
  obtain ⟨n, hn⟩ := t
  cases n with
  | zero => rfl
  | succ n => exact absurd h0 (Nat.succ_ne_zero n)

theorem acc0_pos (c : Dev nD) (t : Fin cfg0.N) (h0 : t.val ≠ 0) :
    acc0 V c t.val t.isLt = k0_pay2 (iblk0 V c 0 t) (iblk0 V c 1 t) (acc0 V c (t.val - 1) (Nat.lt_of_le_of_lt (Nat.sub_le _ _) t.isLt)) := by
  obtain ⟨n, hn⟩ := t
  cases n with
  | zero => exact absurd rfl h0
  | succ n => rfl

/-- The core's scoped buffers other than this region's staging buffers and its accumulator: never touched here. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The class invariant with the accumulator's scratch split off as an owned memref. -/
theorem PhiA0_eq (c : Dev nD) :
    (Pipeline.ΦA spec0 c : sProp 𝕄)
      = iprop(((∃ d, owns (c : Thread nD τ) scM0 fullShare d) ∗ rest0 (F := F) c) ∗ (∃ r, prngReg c r)) := by
  unfold Pipeline.ΦA rest0; rw [scopedRest0_eq]; simp only [scM0, owns_whole]; try rfl

/-- The region invariant before position `n`: before the first point every scratch at anything; afterwards the
    accumulator at what the point before left. -/
def PhiS0 (c : Dev nD) : (n : ℕ) → n ≤ cfg0.N → sProp 𝕄
  | 0, _ => Pipeline.ΦA spec0 c
  | n + 1, hn => iprop((owns (c : Thread nD τ) scM0 fullShare (acc0 V c n hn) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop((owns (c : Thread nD τ) scM0 fullShare (acc0 V c n hn) ∗ rest0 (F := F) c) ∗ (∃ r, prngReg c r)) := rfl
theorem PhiS0_pos (c : Dev nD) (n : ℕ) (h : n ≤ cfg0.N) (hz : n ≠ 0) :
    PhiS0 V c n h = iprop((owns (c : Thread nD τ) scM0 fullShare (acc0 V c (n - 1) (by omega)) ∗ rest0 (F := F) c) ∗ (∃ r, prngReg c r)) := by
  cases n with
  | zero => exact absurd rfl hz
  | succ n => rfl

/-- The proof data of the first product on core `c`: the arrays as the region finds them; after the body at point
    `t` each input's buffer at its block and the output's at the accumulator; the invariant `PhiS0`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  by_cases h0 : t.val = 0
  · have h1 : t.val ≠ 31 := by omega
    rw [Dat.leavesExact_idle (dat0 V c) 2 t ((idle0_2_iff t).mpr h1) (by
      cases hfl : (cfg0.win 2).flush t with
      | false => rfl
      | true => exact absurd ((flush0_2 t).mp hfl) (by omega))]
    rw [acc0_zero V c t h0]
    rw [PhiS0_castSucc V c t, PhiS0_zero V c _ _ h0, PhiA0_eq]
    iintro ⟨⟨⟨HS, HR⟩, Hg⟩, Ho, ⟨%d0, H0⟩, ⟨%d1, H1⟩, ⟨%d2, H2⟩⟩
    iapply (sound_kernel0_first c Set.univ (grid0.coords t) ((hcond0_0 t).mpr h0) (fun h => h1 ((hcond0_1 t).mp h))
      _ (hs0_0 t) _ (hs0_1 t) _ (hs0_2 t) _ (Memref.isWhole_whole _) (iblk0 V c 0 t) (iblk0 V c 1 t) ((dat0 V c).before 2 t d2) _)
    isplitl [H0]; · iexact H0
    isplitl [H1]; · iexact H1
    isplitl [H2]; · iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexists _; iexact H2
  · by_cases h1 : t.val = 31
    · rw [show (dat0 V c).leavesExact 2 t = owns (c : Thread nD τ) (ms0_2 t) fullShare ((dat0 V c).after 2 t) from by
        unfold Dat.leavesExact
        rw [show cfg0.idle 2 (grid0.coords t) = false from by
          cases hi : cfg0.idle 2 (grid0.coords t) with
          | false => rfl
          | true => exact absurd h1 ((idle0_2_iff t).mp hi)], after0_2]
      rw [acc0_pos V c t h0]
      rw [PhiS0_castSucc V c t, PhiS0_pos V c _ _ h0]
      iintro ⟨⟨⟨HS, HR⟩, Hg⟩, Ho, ⟨%d0, H0⟩, ⟨%d1, H1⟩, ⟨%d2, H2⟩⟩
      iapply (sound_kernel0_last c Set.univ (grid0.coords t) (fun h => h0 ((hcond0_0 t).mp h)) ((hcond0_1 t).mpr h1)
        _ (hs0_0 t) _ (hs0_1 t) _ (hs0_2 t) _ (Memref.isWhole_whole _) (iblk0 V c 0 t) (iblk0 V c 1 t) _ _)
      isplitl [H0]; · iexact H0
      isplitl [H1]; · iexact H1
      isplitl [H2]; · iexists _; iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · rw [Dat.leavesExact_idle (dat0 V c) 2 t ((idle0_2_iff t).mpr h1) (by
        cases hfl : (cfg0.win 2).flush t with
        | false => rfl
        | true => exact absurd ((flush0_2 t).mp hfl) (by omega))]
      rw [acc0_pos V c t h0]
      rw [PhiS0_castSucc V c t, PhiS0_pos V c _ _ h0]
      iintro ⟨⟨⟨HS, HR⟩, Hg⟩, Ho, ⟨%d0, H0⟩, ⟨%d1, H1⟩, ⟨%d2, H2⟩⟩
      iapply (sound_kernel0_mid c Set.univ (grid0.coords t) (fun h => h0 ((hcond0_0 t).mp h)) (fun h => h1 ((hcond0_1 t).mp h))
        _ (hs0_0 t) _ (hs0_1 t) _ (hs0_2 t) _ (Memref.isWhole_whole _) (iblk0 V c 0 t) (iblk0 V c 1 t) ((dat0 V c).before 2 t d2) _ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class invariant back: the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 32 := N_0; omega), PhiA0_eq]
  iintro ⟨⟨HS, HR⟩, Hg⟩
  isplitl [HS HR]
  · isplitl [HS]; · iexists _; iexact HS
    iexact HR
  iexact Hg

end Cert.Kernel.Hand

end
-- ==== Proof.Kernel.Body1.lean ====
import proofs.«150913_j67465346285598_1_alg».proof.Proof.Gen.Kernel.Launch
import proofs.«150913_j67465346285598_1_alg».proof.Proof.Gen.Kernel.Skeleton
import proofs.«150913_j67465346285598_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import proofs.«150913_j67465346285598_1_alg».proof.Proof.LibWholeStores

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.LibWholeStores

variable {F : FTy → Type} [FloatOps F]

local notation "𝕄" => MT nD τ sig Unit (Elt F) ℕ (UR sig nD τ) ℕ

/-! ## The second product's body: its two conditions hold at every grid point -/

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) :=
  (by decide +kernel : ∀ t : Fin grid1.N, cond1_0 (grid1.coords t))
abbrev cond1_1 (i : grid1.Coords) : Prop := k1_cond2 i = 1#1
theorem hcond1_1 : ∀ t : Fin cfg1.N, cond1_1 (grid1.coords t) :=
  (by decide +kernel : ∀ t : Fin grid1.N, cond1_1 (grid1.coords t))

abbrev r1_a : Rect S64x9248 := Rect.unit (s := S64x9248) ![0, 0] S64x9248.size inb_S64x9248_S64x9248_0_0
abbrev r1_b : Rect S256x9248 := Rect.unit (s := S256x9248) ![0, 0] S256x9248.size inb_S256x9248_S256x9248_0_0
abbrev r1_o : Rect S64x256 := Rect.unit (s := S64x256) ![0, 0] S64x256.size inb_S64x256_S64x256_0_0

set_option maxHeartbeats 1000000 in
theorem sound_kernel1 (c : Dev nD) (E : Set ℕ) (i : grid1.Coords) (hc0 : cond1_0 i) (hc1 : cond1_1 i)
    (arg2 : Memref sig .tc .vmem S64x9248 .f32) (harg2 : arg2.IsWhole) (arg3 : Memref sig .tc .vmem S256x9248 .f32) (harg3 : arg3.IsWhole)
    (arg4 : Memref sig .tc .vmem S64x256 .f32) (harg4 : arg4.IsWhole) (arg5 : Memref sig .tc .vmem S64x256 .f32) (harg5 : arg5.IsWhole)
    (x0 : Vec F S64x9248 .f32) (x1 : Vec F S256x9248 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (k1_pay2 x0 x1 (k1_pay1 (F := F)))
            ∗ owns (c : Thread nD τ) arg5 fullShare (k1_pay2 x0 x1 (k1_pay1 (F := F)))) -∗ K ⟨⟩))
      ⊢ wp frame (wpE (defs₀ (F := F)) Variants.none c none) E (cc1__matmul_bT_kernel i arg2 harg2 arg3 harg3 arg4 harg4 arg5 harg5) K := by
  simp only [cc1__matmul_bT_kernel_eq_skeleton]; unfold cc1__matmul_bT_kernel_skel
  unfold owns
  iintro ⟨⟨%f0, %hf0, H0⟩, ⟨%f1, %hf1, H1⟩, ⟨%d4, %f4, -, H4⟩, ⟨%d5, %f5, -, H5⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr
    swap; · iexact H4
    ipureintro
    sl_unfold_words
    rw [read_writes_cons_unit_zero _ _ zero2, readCov_cons_unit_zero _ zero2, readCov_cons_unit_zero _ zero2,
      View.readAt_eq_ld, View.readAt_eq_ld, harg2.read_unread, harg3.read_unread,
      View.ld_unit_zero zero2, View.ld_unit_zero zero2]
  · iexists _; isplitr
    swap; · iexact H5
    ipureintro
    sl_unfold_words
    rw [read_writes_cons_unit_zero _ _ zero2, readCov_cons_unit_zero _ zero2,
      View.readAt_eq_ld, View.readAt_eq_ld, harg2.read_unread, harg3.read_unread,
      View.ld_unit_zero zero2, View.ld_unit_zero zero2]

end Cert.Kernel.Hand

end
-- ==== Proof.Kernel.Region1.lean ====
import proofs.«150913_j67465346285598_1_alg».proof.Proof.Kernel.Body1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.LibWholeStores

variable {F : FTy → Type} [FloatOps F]

local notation "𝕄" => MT nD τ sig Unit (Elt F) ℕ (UR sig nD τ) ℕ

/-! # The second product as a pipeline region, entered at buffer contents `V`

Point `t` of the 32 × 1 grid multiplies the whole left operand (fetched once) with the `t`-th block of 256 rows of
the right operand, contracting the whole shared axis, into a freshly zeroed accumulator, and copies it to the
`t`-th block of 256 output columns. Nothing is carried between points. -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point (fetched there or not: an unfetched window's
    index has not moved), for any proof data over `V` that leaves it there. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev ms1_0 (t : Fin cfg1.N) : Memref sig .tc .vmem S64x9248 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x9248 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x256 .f32 := win1_2.stage (cfg1.slots t 2)
abbrev hs1_2 (t : Fin cfg1.N) : (ms1_2 t).IsWhole := hstage1_2 ((cfg1.slots t 2).cast nbuf1_2)
abbrev scM1 : Memref sig .tc .vmem S64x256 .f32 := Memref.whole cc1_scratch0

/-- What point `t` leaves in its output block (and in the accumulator): the product of its two input blocks added to
    the zero fill. -/
def out1 (c : Dev nD) (t : Fin cfg1.N) : Vec F S64x256 .f32 :=
  k1_pay2 (iblk1 V c 0 t) (iblk1 V c 1 t) (k1_pay1 (F := F))

/-- The class invariant with the accumulator's scratch (the last of the core's other scoped buffers) as an owned memref. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f) ∗ (∃ d, owns (c : Thread nD τ) scM1 fullShare d)) ∗ (∃ r, prngReg c r)) := by
  unfold Pipeline.ΦA; rw [scopedRest1_eq]; simp only [scM1, owns_whole]; try rfl

/-- The proof data of the second product on core `c`: the arrays as the region finds them; after the body at point
    `t` each input's buffer at its block and the output's at `out1`; the class invariant. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 V c t
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = Pipeline.ΦA spec1 c from rfl,
    show (dat1 V c).Φ t.castSucc = Pipeline.ΦA spec1 c from rfl,
    show (dat1 V c).owesAt () t.succ = (dat1 V c).owesAt () t.castSucc from rfl]
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  unfold out1
  rw [PhiA1_eq]
  iintro ⟨⟨⟨A1, A2, A3, A4, A5, A6, HS⟩, Hg⟩, Ho, ⟨%d0, H0⟩, ⟨%d1, H1⟩, ⟨%d2, H2⟩⟩
  iapply (sound_kernel1 c Set.univ (grid1.coords t) (hcond1_0 t) (hcond1_1 t)
    _ (hs1_0 t) _ (hs1_1 t) _ (hs1_2 t) _ (Memref.isWhole_whole _) (iblk1 V c 0 t) (iblk1 V c 1 t) _)
  isplitl [H0]; · iexact H0
  isplitl [H1]; · iexact H1
  isplitl [H2]; · iexists _; iexact H2
  isplitl [HS]; · iexact HS
  iintro ⟨H0, H1, H2, HS⟩
  isplitl [A1 A2 A3 A4 A5 A6 HS Hg]
  · isplitl [A1 A2 A3 A4 A5 A6 HS]
    · isplitl [A1]; · iexact A1
      isplitl [A2]; · iexact A2
      isplitl [A3]; · iexact A3
      isplitl [A4]; · iexact A4
      isplitl [A5]; · iexact A5
      isplitl [A6]; · iexact A6
      iexists _; iexact HS
    iexact Hg
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Kernel.Run.lean ====
import proofs.«150913_j67465346285598_1_alg».proof.Proof.Kernel.Region0
import proofs.«150913_j67465346285598_1_alg».proof.Proof.Kernel.Region1
import Idealize.ShloMosaic.Lib.Pipeline.RegionsLoop

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.LibWholeStores

variable {F : FTy → Type} [FloatOps F]

local notation "𝕄" => MT nD τ sig Unit (Elt F) ℕ (UR sig nD τ) ℕ

/-! # The run of the whole program: the two products one after the other

The buffer contents at each boundary: the launch memory; after the first product its output array at what its
write-backs leave; after the second product its output array likewise. Every other buffer keeps its contents. -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the first product: its arrays at what the pipeline leaves. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the second product: its arrays at what the pipeline leaves. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ### The arguments end as launched, and the second product finds the first's result -/

theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := (W1_arr m ρ c 1).trans (((dat0 (V0 m ρ) c).arrAt_in 1 rfl _).trans (A_eq0 (V0 m ρ) c 1))
    _ = m ((c : Thread nD τ).loc main_arg2) := rfl
theorem W1_main_arg1 (c : Dev nD) : W1 m ρ c (Proc.devRef .tc main_arg1) = m ((c : Thread nD τ).loc main_arg1) :=
  (W1_of_ne m ρ c main_arg1 (by decide)).trans rfl
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := (W2_arr m ρ c 1).trans (((dat1 (V1 m ρ) c).arrAt_in 1 rfl _).trans (A_eq1 (V1 m ρ) c 1))
    _ = m ((c : Thread nD τ).loc main_arg1) := W1_main_arg1 m ρ c
/-- The first product's result, as the second product finds it. -/
theorem V1_main_v0 (c : Dev nD) : V1 m ρ c main_v0 = (dat0 (V0 m ρ) c).arrAt 2 cfg0.N := W1_arr m ρ c 2
/-- The program's result. -/
theorem W2_main_v1 (c : Dev nD) : W2 m ρ c (Proc.devRef .tc main_v1) = (dat1 (V1 m ρ) c).arrAt 2 cfg1.N := W2_arr m ρ c 2

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ c) ∗ ∃ r, prngReg c r)

/-! ## The regions as segments -/

set_option backward.isDefEq.respectTransparency.types false in
/-- The first product over the thread state: entered from every unscoped buffer at the launch contents, left with
    its output array at what its write-backs leave. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (V0 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second product over the thread state: entered from what the first left, left with its output array at
    what its write-backs leave. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ), .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, with the result array at what the second product's write-backs leave (the second product entered at
    what the first left) and every argument array as launched. -/
theorem run_main : θ_run defs (onTc (τ := τ) (main (F := F))) ⟨m, fun _ => 0, ρ⟩ (fun r => ∀ c : Dev nD,
      r.2.mem ((c.tc : Thread nD τ).loc main_v1) = (dat1 (V1 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v1 (by decide))).trans (W2_main_v1 m ρ c),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c)⟩)

/-- The frame: the program runs and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_main m ρ)

end Cert.Kernel.Hand

end
-- ==== Proof.KernelIdeal.Body0.lean ====
import proofs.«150913_j67465346285598_1_alg».proof.Proof.Gen.KernelIdeal.Launch
import proofs.«150913_j67465346285598_1_alg».proof.Proof.Gen.KernelIdeal.Skeleton
import proofs.«150913_j67465346285598_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«150913_j67465346285598_1_alg».proof.Proof.LibWholeStores

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.LibWholeStores

variable {F : FTy → Type} [FloatOps F]

local notation "𝕄" => MT nD τ sig Unit (Elt F) ℕ (UR sig nD τ) ℕ

/-! ## The first product's body: its two conditions over the grid

The grid is 1 × 32; point `t` is the `t`-th block of 256 along the contracted axis. The accumulator is reset at
the first point only, and copied to the output block at the last point only. -/

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)
abbrev cond0_1 (i : grid0.Coords) : Prop := k0_cond2 i = 1#1
theorem hcond0_1 : ∀ t : Fin cfg0.N, cond0_1 (grid0.coords t) ↔ t.val = 31 :=
  (by decide +kernel : ∀ t : Fin grid0.N, cond0_1 (grid0.coords t) ↔ t.val = 31)

/-- Where the output window is idle: at every point but the last. -/
theorem idle0_2_iff : ∀ t : Fin cfg0.N, cfg0.idle 2 (grid0.coords t) = true ↔ t.val ≠ 31 :=
  (by decide +kernel : ∀ t : Fin grid0.N, cfg0.idle 2 (grid0.coords t) = true ↔ t.val ≠ 31)
theorem live0_0 : ∀ t : Fin cfg0.N, cfg0.idle 0 (grid0.coords t) = false := by decide +kernel
theorem live0_1 : ∀ t : Fin cfg0.N, cfg0.idle 1 (grid0.coords t) = false := by decide +kernel

set_option maxHeartbeats 1000000 in
/-- At the first point: the accumulator is zeroed, then the block product is added; the output block is left alone. -/
theorem sound_kernel0_first (c : Dev nD) (E : Set ℕ) (i : grid0.Coords) (hc0 : cond0_0 i) (hc1 : ¬cond0_1 i)
    (arg2 : Memref sig .tc .vmem S64x256 .f32) (harg2 : arg2.IsWhole) (arg3 : Memref sig .tc .vmem S9248x256 .f32) (harg3 : arg3.IsWhole)
    (arg4 : Memref sig .tc .vmem S64x9248 .f32) (harg4 : arg4.IsWhole) (arg5 : Memref sig .tc .vmem S64x9248 .f32) (harg5 : arg5.IsWhole)
    (x0 : Vec F S64x256 .f32) (x1 : Vec F S9248x256 .f32) (xo : Vec F S64x9248 .f32) (K : PUnit → sProp 𝕄) :
    iprop(owns (c : Thread nD τ) arg2 fullShare x0 ∗ owns (c : Thread nD τ) arg3 fullShare x1
        ∗ owns (c : Thread nD τ) arg4 fullShare xo ∗ (∃ d, owns (c : Thread nD τ) arg5 fullShare d)
        ∗ (iprop(owns (c : Thread nD τ) arg2 fullShare x0 ∗ owns (c : Thread nD τ) arg3 fullShare x1
            ∗ owns (c : Thread nD τ) arg4 fullShare xo
            ∗ owns (c : Thread nD τ) arg5 fullShare (k0_pay2 x0 x1 (k0_pay1 (F := F)))) -∗ K ⟨⟩))
      ⊢ wp frame (wpE (defs₀ (F := F)) Variants.none c none) E (cc0__matmul_bT_kernel i arg2 harg2 arg3 harg3 arg4 harg4 arg5 harg5) K := by
  simp only [cc0__matmul_bT_kernel_eq_skeleton]; unfold cc0__matmul_bT_kernel_skel
  unfold owns
  iintro ⟨⟨%f0, %hf0, H0⟩, ⟨%f1, %hf1, H1⟩, ⟨%f4, %hf4, H4⟩, ⟨%d5, %f5, -, H5⟩, Hk⟩
  obtain rfl := harg2.eq_unread hf0; obtain rfl := harg3.eq_unread hf1; obtain rfl := harg4.eq_unread hf4
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; · ipureintro; exact harg4.read_unread _
    iexact H4
  · iexists _; isplitr
    swap; · iexact H5
    ipureintro
    sl_unfold_words
    rw [read_writes_cons_unit_zero _ _ zero2, readCov_cons_unit_zero _ zero2,
      View.readAt_eq_ld, View.readAt_eq_ld, harg2.read_unread, harg3.read_unread,
      View.ld_unit_zero zero2, View.ld_unit_zero zero2]

set_option maxHeartbeats 1000000 in
/-- At a middle point: the block product is added to what the accumulator held; the output block is left alone. -/
theorem sound_kernel0_mid (c : Dev nD) (E : Set ℕ) (i : grid0.Coords) (hc0 : ¬cond0_0 i) (hc1 : ¬cond0_1 i)
    (arg2 : Memref sig .tc .vmem S64x256 .f32) (harg2 : arg2.IsWhole) (arg3 : Memref sig .tc .vmem S9248x256 .f32) (harg3 : arg3.IsWhole)
    (arg4 : Memref sig .tc .vmem S64x9248 .f32) (harg4 : arg4.IsWhole) (arg5 : Memref sig .tc .vmem S64x9248 .f32) (harg5 : arg5.IsWhole)
    (x0 : Vec F S64x256 .f32) (x1 : Vec F S9248x256 .f32) (xo : Vec F S64x9248 .f32) (xs : Vec F S64x9248 .f32) (K : PUnit → sProp 𝕄) :
    iprop(owns (c : Thread nD τ) arg2 fullShare x0 ∗ owns (c : Thread nD τ) arg3 fullShare x1
        ∗ owns (c : Thread nD τ) arg4 fullShare xo ∗ owns (c : Thread nD τ) arg5 fullShare xs
        ∗ (iprop(owns (c : Thread nD τ) arg2 fullShare x0 ∗ owns (c : Thread nD τ) arg3 fullShare x1
            ∗ owns (c : Thread nD τ) arg4 fullShare xo
            ∗ owns (c : Thread nD τ) arg5 fullShare (k0_pay2 x0 x1 xs)) -∗ K ⟨⟩))
      ⊢ wp frame (wpE (defs₀ (F := F)) Variants.none c none) E (cc0__matmul_bT_kernel i arg2 harg2 arg3 harg3 arg4 harg4 arg5 harg5) K := by
  simp only [cc0__matmul_bT_kernel_eq_skeleton]; unfold cc0__matmul_bT_kernel_skel
  unfold owns
  iintro ⟨⟨%f0, %hf0, H0⟩, ⟨%f1, %hf1, H1⟩, ⟨%f4, %hf4, H4⟩, ⟨%f5, %hf5, H5⟩, Hk⟩
  obtain rfl := harg2.eq_unread hf0; obtain rfl := harg3.eq_unread hf1; obtain rfl := harg4.eq_unread hf4
  obtain rfl := harg5.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; · ipureintro; exact harg4.read_unread _
    iexact H4
  · iexists _; isplitr
    swap; · iexact H5
    ipureintro
    sl_unfold_words
    rw [read_writes_cons_unit_zero _ _ zero2,
      View.readAt_eq_ld, View.readAt_eq_ld, View.readAt_eq_ld, harg2.read_unread, harg3.read_unread, harg5.read_unread,
      View.ld_unit_zero zero2, View.ld_unit_zero zero2, View.ld_unit_zero zero2]

set_option maxHeartbeats 1000000 in
/-- At the last point: the block product is added, and the accumulator is copied to the output block. -/
theorem sound_kernel0_last (c : Dev nD) (E : Set ℕ) (i : grid0.Coords) (hc0 : ¬cond0_0 i) (hc1 : cond0_1 i)
    (arg2 : Memref sig .tc .vmem S64x256 .f32) (harg2 : arg2.IsWhole) (arg3 : Memref sig .tc .vmem S9248x256 .f32) (harg3 : arg3.IsWhole)
    (arg4 : Memref sig .tc .vmem S64x9248 .f32) (harg4 : arg4.IsWhole) (arg5 : Memref sig .tc .vmem S64x9248 .f32) (harg5 : arg5.IsWhole)
    (x0 : Vec F S64x256 .f32) (x1 : Vec F S9248x256 .f32) (xs : Vec F S64x9248 .f32) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare xs
        ∗ (iprop(owns (c : Thread nD τ) arg2 fullShare x0 ∗ owns (c : Thread nD τ) arg3 fullShare x1
            ∗ owns (c : Thread nD τ) arg4 fullShare (k0_pay2 x0 x1 xs)
            ∗ owns (c : Thread nD τ) arg5 fullShare (k0_pay2 x0 x1 xs)) -∗ K ⟨⟩))
      ⊢ wp frame (wpE (defs₀ (F := F)) Variants.none c none) E (cc0__matmul_bT_kernel i arg2 harg2 arg3 harg3 arg4 harg4 arg5 harg5) K := by
  simp only [cc0__matmul_bT_kernel_eq_skeleton]; unfold cc0__matmul_bT_kernel_skel
  unfold owns
  iintro ⟨⟨%f0, %hf0, H0⟩, ⟨%f1, %hf1, H1⟩, ⟨%d4, %f4, -, H4⟩, ⟨%f5, %hf5, H5⟩, Hk⟩
  obtain rfl := harg2.eq_unread hf0; obtain rfl := harg3.eq_unread hf1
  obtain rfl := harg5.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr
    swap; · iexact H4
    ipureintro
    sl_unfold_words
    rw [read_writes_cons_unit_zero _ _ zero2, readCov_cons_unit_zero _ zero2,
      View.readAt_eq_ld, View.readAt_eq_ld, View.readAt_eq_ld, harg2.read_unread, harg3.read_unread, harg5.read_unread,
      View.ld_unit_zero zero2, View.ld_unit_zero zero2, View.ld_unit_zero zero2]
  · iexists _; isplitr
    swap; · iexact H5
    ipureintro
    sl_unfold_words
    rw [read_writes_cons_unit_zero _ _ zero2,
      View.readAt_eq_ld, View.readAt_eq_ld, View.readAt_eq_ld, harg2.read_unread, harg3.read_unread, harg5.read_unread,
      View.ld_unit_zero zero2, View.ld_unit_zero zero2, View.ld_unit_zero zero2]

end Cert.KernelIdeal.Hand

end
-- ==== Proof.KernelIdeal.Region0.lean ====
import proofs.«150913_j67465346285598_1_alg».proof.Proof.KernelIdeal.Body0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.LibWholeStores

variable {F : FTy → Type} [FloatOps F]

local notation "𝕄" => MT nD τ sig Unit (Elt F) ℕ (UR sig nD τ) ℕ

/-! # The first product as a pipeline region, entered at buffer contents `V`

Point `t` of the 1 × 32 grid multiplies the `t`-th 256-column block of the left operand with the `t`-th
256-column block of the right operand (contracting those columns) and adds the result to an accumulator kept in a
scratch buffer between points; the last point copies the accumulator to the one output block, which is the whole
output array. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, for any proof data over `V` that leaves it there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Each window's current staging memref at point `t`, as the pipeline passes it, and the accumulator's scratch. -/
abbrev ms0_0 (t : Fin cfg0.N) : Memref sig .tc .vmem S64x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S9248x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x9248 .f32 := win0_2.stage (cfg0.slots t 2)
abbrev hs0_2 (t : Fin cfg0.N) : (ms0_2 t).IsWhole := hstage0_2 ((cfg0.slots t 2).cast nbuf0_2)
abbrev scM0 : Memref sig .tc .vmem S64x9248 .f32 := Memref.whole cc0_scratch0

/-- THE ACCUMULATOR after point `n`: the zero fill plus the block products of points `0 … n`, added in order. -/
def acc0 (c : Dev nD) : (n : ℕ) → n < cfg0.N → Vec F S64x9248 .f32
  | 0, h => k0_pay2 (iblk0 V c 0 ⟨0, h⟩) (iblk0 V c 1 ⟨0, h⟩) (k0_pay1 (F := F))
  | n + 1, h => k0_pay2 (iblk0 V c 0 ⟨n + 1, h⟩) (iblk0 V c 1 ⟨n + 1, h⟩) (acc0 c n (Nat.lt_of_succ_lt h))

theorem acc0_zero (c : Dev nD) (t : Fin cfg0.N) (h0 : t.val = 0) :
    acc0 V c t.val t.isLt = k0_pay2 (iblk0 V c 0 t) (iblk0 V c 1 t) (k0_pay1 (F := F)) := by
  obtain ⟨n, hn⟩ := t
  cases n with
  | zero => rfl
  | succ n => exact absurd h0 (Nat.succ_ne_zero n)

theorem acc0_pos (c : Dev nD) (t : Fin cfg0.N) (h0 : t.val ≠ 0) :
    acc0 V c t.val t.isLt = k0_pay2 (iblk0 V c 0 t) (iblk0 V c 1 t) (acc0 V c (t.val - 1) (Nat.lt_of_le_of_lt (Nat.sub_le _ _) t.isLt)) := by
  obtain ⟨n, hn⟩ := t
  cases n with
  | zero => exact absurd rfl h0
  | succ n => rfl

/-- The core's scoped buffers other than this region's staging buffers and its accumulator: never touched here. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The class invariant with the accumulator's scratch split off as an owned memref. -/
theorem PhiA0_eq (c : Dev nD) :
    (Pipeline.ΦA spec0 c : sProp 𝕄)
      = iprop(((∃ d, owns (c : Thread nD τ) scM0 fullShare d) ∗ rest0 (F := F) c) ∗ (∃ r, prngReg c r)) := by
  unfold Pipeline.ΦA rest0; rw [scopedRest0_eq]; simp only [scM0, owns_whole]; try rfl

/-- The region invariant before position `n`: before the first point every scratch at anything; afterwards the
    accumulator at what the point before left. -/
def PhiS0 (c : Dev nD) : (n : ℕ) → n ≤ cfg0.N → sProp 𝕄
  | 0, _ => Pipeline.ΦA spec0 c
  | n + 1, hn => iprop((owns (c : Thread nD τ) scM0 fullShare (acc0 V c n hn) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop((owns (c : Thread nD τ) scM0 fullShare (acc0 V c n hn) ∗ rest0 (F := F) c) ∗ (∃ r, prngReg c r)) := rfl
theorem PhiS0_pos (c : Dev nD) (n : ℕ) (h : n ≤ cfg0.N) (hz : n ≠ 0) :
    PhiS0 V c n h = iprop((owns (c : Thread nD τ) scM0 fullShare (acc0 V c (n - 1) (by omega)) ∗ rest0 (F := F) c) ∗ (∃ r, prngReg c r)) := by
  cases n with
  | zero => exact absurd rfl hz
  | succ n => rfl

/-- The proof data of the first product on core `c`: the arrays as the region finds them; after the body at point
    `t` each input's buffer at its block and the output's at the accumulator; the invariant `PhiS0`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  by_cases h0 : t.val = 0
  · have h1 : t.val ≠ 31 := by omega
    rw [Dat.leavesExact_idle (dat0 V c) 2 t ((idle0_2_iff t).mpr h1) (by
      cases hfl : (cfg0.win 2).flush t with
      | false => rfl
      | true => exact absurd ((flush0_2 t).mp hfl) (by omega))]
    rw [acc0_zero V c t h0]
    rw [PhiS0_castSucc V c t, PhiS0_zero V c _ _ h0, PhiA0_eq]
    iintro ⟨⟨⟨HS, HR⟩, Hg⟩, Ho, ⟨%d0, H0⟩, ⟨%d1, H1⟩, ⟨%d2, H2⟩⟩
    iapply (sound_kernel0_first c Set.univ (grid0.coords t) ((hcond0_0 t).mpr h0) (fun h => h1 ((hcond0_1 t).mp h))
      _ (hs0_0 t) _ (hs0_1 t) _ (hs0_2 t) _ (Memref.isWhole_whole _) (iblk0 V c 0 t) (iblk0 V c 1 t) ((dat0 V c).before 2 t d2) _)
    isplitl [H0]; · iexact H0
    isplitl [H1]; · iexact H1
    isplitl [H2]; · iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexists _; iexact H2
  · by_cases h1 : t.val = 31
    · rw [show (dat0 V c).leavesExact 2 t = owns (c : Thread nD τ) (ms0_2 t) fullShare ((dat0 V c).after 2 t) from by
        unfold Dat.leavesExact
        rw [show cfg0.idle 2 (grid0.coords t) = false from by
          cases hi : cfg0.idle 2 (grid0.coords t) with
          | false => rfl
          | true => exact absurd h1 ((idle0_2_iff t).mp hi)], after0_2]
      rw [acc0_pos V c t h0]
      rw [PhiS0_castSucc V c t, PhiS0_pos V c _ _ h0]
      iintro ⟨⟨⟨HS, HR⟩, Hg⟩, Ho, ⟨%d0, H0⟩, ⟨%d1, H1⟩, ⟨%d2, H2⟩⟩
      iapply (sound_kernel0_last c Set.univ (grid0.coords t) (fun h => h0 ((hcond0_0 t).mp h)) ((hcond0_1 t).mpr h1)
        _ (hs0_0 t) _ (hs0_1 t) _ (hs0_2 t) _ (Memref.isWhole_whole _) (iblk0 V c 0 t) (iblk0 V c 1 t) _ _)
      isplitl [H0]; · iexact H0
      isplitl [H1]; · iexact H1
      isplitl [H2]; · iexists _; iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · rw [Dat.leavesExact_idle (dat0 V c) 2 t ((idle0_2_iff t).mpr h1) (by
        cases hfl : (cfg0.win 2).flush t with
        | false => rfl
        | true => exact absurd ((flush0_2 t).mp hfl) (by omega))]
      rw [acc0_pos V c t h0]
      rw [PhiS0_castSucc V c t, PhiS0_pos V c _ _ h0]
      iintro ⟨⟨⟨HS, HR⟩, Hg⟩, Ho, ⟨%d0, H0⟩, ⟨%d1, H1⟩, ⟨%d2, H2⟩⟩
      iapply (sound_kernel0_mid c Set.univ (grid0.coords t) (fun h => h0 ((hcond0_0 t).mp h)) (fun h => h1 ((hcond0_1 t).mp h))
        _ (hs0_0 t) _ (hs0_1 t) _ (hs0_2 t) _ (Memref.isWhole_whole _) (iblk0 V c 0 t) (iblk0 V c 1 t) ((dat0 V c).before 2 t d2) _ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class invariant back: the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 32 := N_0; omega), PhiA0_eq]
  iintro ⟨⟨HS, HR⟩, Hg⟩
  isplitl [HS HR]
  · isplitl [HS]; · iexists _; iexact HS
    iexact HR
  iexact Hg

end Cert.KernelIdeal.Hand

end
-- ==== Proof.KernelIdeal.Body1.lean ====
import proofs.«150913_j67465346285598_1_alg».proof.Proof.Gen.KernelIdeal.Launch
import proofs.«150913_j67465346285598_1_alg».proof.Proof.Gen.KernelIdeal.Skeleton
import proofs.«150913_j67465346285598_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«150913_j67465346285598_1_alg».proof.Proof.LibWholeStores

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.LibWholeStores

variable {F : FTy → Type} [FloatOps F]

local notation "𝕄" => MT nD τ sig Unit (Elt F) ℕ (UR sig nD τ) ℕ

/-! ## The second product's body: its two conditions hold at every grid point -/

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) :=
  (by decide +kernel : ∀ t : Fin grid1.N, cond1_0 (grid1.coords t))
abbrev cond1_1 (i : grid1.Coords) : Prop := k1_cond2 i = 1#1
theorem hcond1_1 : ∀ t : Fin cfg1.N, cond1_1 (grid1.coords t) :=
  (by decide +kernel : ∀ t : Fin grid1.N, cond1_1 (grid1.coords t))

abbrev r1_a : Rect S64x9248 := Rect.unit (s := S64x9248) ![0, 0] S64x9248.size inb_S64x9248_S64x9248_0_0
abbrev r1_b : Rect S256x9248 := Rect.unit (s := S256x9248) ![0, 0] S256x9248.size inb_S256x9248_S256x9248_0_0
abbrev r1_o : Rect S64x256 := Rect.unit (s := S64x256) ![0, 0] S64x256.size inb_S64x256_S64x256_0_0

set_option maxHeartbeats 1000000 in
theorem sound_kernel1 (c : Dev nD) (E : Set ℕ) (i : grid1.Coords) (hc0 : cond1_0 i) (hc1 : cond1_1 i)
    (arg2 : Memref sig .tc .vmem S64x9248 .f32) (harg2 : arg2.IsWhole) (arg3 : Memref sig .tc .vmem S256x9248 .f32) (harg3 : arg3.IsWhole)
    (arg4 : Memref sig .tc .vmem S64x256 .f32) (harg4 : arg4.IsWhole) (arg5 : Memref sig .tc .vmem S64x256 .f32) (harg5 : arg5.IsWhole)
    (x0 : Vec F S64x9248 .f32) (x1 : Vec F S256x9248 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (k1_pay2 x0 x1 (k1_pay1 (F := F)))
            ∗ owns (c : Thread nD τ) arg5 fullShare (k1_pay2 x0 x1 (k1_pay1 (F := F)))) -∗ K ⟨⟩))
      ⊢ wp frame (wpE (defs₀ (F := F)) Variants.none c none) E (cc1__matmul_bT_kernel i arg2 harg2 arg3 harg3 arg4 harg4 arg5 harg5) K := by
  simp only [cc1__matmul_bT_kernel_eq_skeleton]; unfold cc1__matmul_bT_kernel_skel
  unfold owns
  iintro ⟨⟨%f0, %hf0, H0⟩, ⟨%f1, %hf1, H1⟩, ⟨%d4, %f4, -, H4⟩, ⟨%d5, %f5, -, H5⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr
    swap; · iexact H4
    ipureintro
    sl_unfold_words
    rw [read_writes_cons_unit_zero _ _ zero2, readCov_cons_unit_zero _ zero2, readCov_cons_unit_zero _ zero2,
      View.readAt_eq_ld, View.readAt_eq_ld, harg2.read_unread, harg3.read_unread,
      View.ld_unit_zero zero2, View.ld_unit_zero zero2]
  · iexists _; isplitr
    swap; · iexact H5
    ipureintro
    sl_unfold_words
    rw [read_writes_cons_unit_zero _ _ zero2, readCov_cons_unit_zero _ zero2,
      View.readAt_eq_ld, View.readAt_eq_ld, harg2.read_unread, harg3.read_unread,
      View.ld_unit_zero zero2, View.ld_unit_zero zero2]

end Cert.KernelIdeal.Hand

end
-- ==== Proof.KernelIdeal.Region1.lean ====
import proofs.«150913_j67465346285598_1_alg».proof.Proof.KernelIdeal.Body1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.LibWholeStores

variable {F : FTy → Type} [FloatOps F]

local notation "𝕄" => MT nD τ sig Unit (Elt F) ℕ (UR sig nD τ) ℕ

/-! # The second product as a pipeline region, entered at buffer contents `V`

Point `t` of the 32 × 1 grid multiplies the whole left operand (fetched once) with the `t`-th block of 256 rows of
the right operand, contracting the whole shared axis, into a freshly zeroed accumulator, and copies it to the
`t`-th block of 256 output columns. Nothing is carried between points. -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point (fetched there or not: an unfetched window's
    index has not moved), for any proof data over `V` that leaves it there. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev ms1_0 (t : Fin cfg1.N) : Memref sig .tc .vmem S64x9248 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x9248 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x256 .f32 := win1_2.stage (cfg1.slots t 2)
abbrev hs1_2 (t : Fin cfg1.N) : (ms1_2 t).IsWhole := hstage1_2 ((cfg1.slots t 2).cast nbuf1_2)
abbrev scM1 : Memref sig .tc .vmem S64x256 .f32 := Memref.whole cc1_scratch0

/-- What point `t` leaves in its output block (and in the accumulator): the product of its two input blocks added to
    the zero fill. -/
def out1 (c : Dev nD) (t : Fin cfg1.N) : Vec F S64x256 .f32 :=
  k1_pay2 (iblk1 V c 0 t) (iblk1 V c 1 t) (k1_pay1 (F := F))

/-- The class invariant with the accumulator's scratch (the last of the core's other scoped buffers) as an owned memref. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f) ∗ (∃ d, owns (c : Thread nD τ) scM1 fullShare d)) ∗ (∃ r, prngReg c r)) := by
  unfold Pipeline.ΦA; rw [scopedRest1_eq]; simp only [scM1, owns_whole]; try rfl

/-- The proof data of the second product on core `c`: the arrays as the region finds them; after the body at point
    `t` each input's buffer at its block and the output's at `out1`; the class invariant. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 V c t
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = Pipeline.ΦA spec1 c from rfl,
    show (dat1 V c).Φ t.castSucc = Pipeline.ΦA spec1 c from rfl,
    show (dat1 V c).owesAt () t.succ = (dat1 V c).owesAt () t.castSucc from rfl]
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  unfold out1
  rw [PhiA1_eq]
  iintro ⟨⟨⟨A1, A2, A3, A4, A5, A6, HS⟩, Hg⟩, Ho, ⟨%d0, H0⟩, ⟨%d1, H1⟩, ⟨%d2, H2⟩⟩
  iapply (sound_kernel1 c Set.univ (grid1.coords t) (hcond1_0 t) (hcond1_1 t)
    _ (hs1_0 t) _ (hs1_1 t) _ (hs1_2 t) _ (Memref.isWhole_whole _) (iblk1 V c 0 t) (iblk1 V c 1 t) _)
  isplitl [H0]; · iexact H0
  isplitl [H1]; · iexact H1
  isplitl [H2]; · iexists _; iexact H2
  isplitl [HS]; · iexact HS
  iintro ⟨H0, H1, H2, HS⟩
  isplitl [A1 A2 A3 A4 A5 A6 HS Hg]
  · isplitl [A1 A2 A3 A4 A5 A6 HS]
    · isplitl [A1]; · iexact A1
      isplitl [A2]; · iexact A2
      isplitl [A3]; · iexact A3
      isplitl [A4]; · iexact A4
      isplitl [A5]; · iexact A5
      isplitl [A6]; · iexact A6
      iexists _; iexact HS
    iexact Hg
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdeal.Run.lean ====
import proofs.«150913_j67465346285598_1_alg».proof.Proof.KernelIdeal.Region0
import proofs.«150913_j67465346285598_1_alg».proof.Proof.KernelIdeal.Region1
import Idealize.ShloMosaic.Lib.Pipeline.RegionsLoop

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.LibWholeStores

variable {F : FTy → Type} [FloatOps F]

local notation "𝕄" => MT nD τ sig Unit (Elt F) ℕ (UR sig nD τ) ℕ

/-! # The run of the whole program: the two products one after the other

The buffer contents at each boundary: the launch memory; after the first product its output array at what its
write-backs leave; after the second product its output array likewise. Every other buffer keeps its contents. -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the first product: its arrays at what the pipeline leaves. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the second product: its arrays at what the pipeline leaves. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ### The arguments end as launched, and the second product finds the first's result -/

theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := (W1_arr m ρ c 1).trans (((dat0 (V0 m ρ) c).arrAt_in 1 rfl _).trans (A_eq0 (V0 m ρ) c 1))
    _ = m ((c : Thread nD τ).loc main_arg2) := rfl
theorem W1_main_arg1 (c : Dev nD) : W1 m ρ c (Proc.devRef .tc main_arg1) = m ((c : Thread nD τ).loc main_arg1) :=
  (W1_of_ne m ρ c main_arg1 (by decide)).trans rfl
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := (W2_arr m ρ c 1).trans (((dat1 (V1 m ρ) c).arrAt_in 1 rfl _).trans (A_eq1 (V1 m ρ) c 1))
    _ = m ((c : Thread nD τ).loc main_arg1) := W1_main_arg1 m ρ c
/-- The first product's result, as the second product finds it. -/
theorem V1_main_v0 (c : Dev nD) : V1 m ρ c main_v0 = (dat0 (V0 m ρ) c).arrAt 2 cfg0.N := W1_arr m ρ c 2
/-- The program's result. -/
theorem W2_main_v1 (c : Dev nD) : W2 m ρ c (Proc.devRef .tc main_v1) = (dat1 (V1 m ρ) c).arrAt 2 cfg1.N := W2_arr m ρ c 2

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ c) ∗ ∃ r, prngReg c r)

/-! ## The regions as segments -/

set_option backward.isDefEq.respectTransparency.types false in
/-- The first product over the thread state: entered from every unscoped buffer at the launch contents, left with
    its output array at what its write-backs leave. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (V0 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second product over the thread state: entered from what the first left, left with its output array at
    what its write-backs leave. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ), .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, with the result array at what the second product's write-backs leave (the second product entered at
    what the first left) and every argument array as launched. -/
theorem run_main : θ_run defs (onTc (τ := τ) (main (F := F))) ⟨m, fun _ => 0, ρ⟩ (fun r => ∀ c : Dev nD,
      r.2.mem ((c.tc : Thread nD τ).loc main_v1) = (dat1 (V1 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v1 (by decide))).trans (W2_main_v1 m ρ c),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c)⟩)

/-- The frame: the program runs and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_main m ρ)

end Cert.KernelIdeal.Hand

end
-- ==== Proof.LibTransposedDot.lean ====
/-
  A matrix product contracted on the LAST axis of both operands, `A · Bᵀ`, read at an index, and the row forms of a
  column (extended reals, the ideal instance).

  With the dimension numbers "contract axis 1 of the left with axis 1 of the right" an `m × k` by `n × k` product reads,
  at `(p, q)`, `∑ c, A (p, c) * B (q, c)` — the host's `dot_general` and a kernel's product accumulated into a zero splat
  alike. A column `[a, 1]` transposed to the row `[1, a]` reads, at `(u, i)`, the column's entry `i`; that row laid over
  the rows of a `[b, a]` matrix reads, at `(p, c)`, the row's entry `c`; and a column `[a, 1]` reshaped to the vector `[a]`
  reads, at `i`, the column's entry `i`.
-/
import Idealize.ShloMosaic.PureOps.Ideal.Laws
import Idealize.ShloMosaic.Lib.ValueIdx
import Idealize.ShloMosaic.Lib.Pipeline.Value
import Idealize.ShloMosaic.Lib.KernelVsHost

noncomputable section

namespace Cert.LibTransposedDot

open Idealize.ShloMosaic Idealize.ShloMosaic.ValueIdx

variable {α : Type}

/-! ## `A · Bᵀ` at an index -/

/-- The host's `dot_general` contracting axis 1 of both operands, read at `(p, q)`. -/
theorem dotGeneral_transposedRhs_apply {m k n : ℕ} {φ₁ φ₂ : FTy} (prec : Option ContractPrecision)
    (A : FVec Ideal ⟨2, ![m, k]⟩ φ₁) (B : FVec Ideal ⟨2, ![n, k]⟩ φ₂) (p : Fin m) (q : Fin n) :
    Host.dotGeneral (DotDims.transposedRhs m k n) prec A B (ix2 p q) = ∑ c : Fin k, A (ix2 p c) * B (ix2 q c) := by
  show FloatOps.dotGeneral _ prec _ A B (ix2 p q) = _
  rw [Ideal.dotGeneral_apply, ← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 p q) ((contrEquiv1 _ k rfl rfl).symm c) = ix2 p c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 p q) ((contrEquiv1 _ k rfl rfl).symm c) = ix2 q c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

/-- A kernel's product with the same dimension numbers into a zero splat, read at `(p, q)`: the same sum. -/
theorem matmul_transposedRhs_apply {m k n : ℕ} {φ₁ φ₂ : FTy} (d : DotDims ⟨2, ![m, k]⟩ ⟨2, ![n, k]⟩ ⟨2, ![m, n]⟩)
    (hd : d = DotDims.transposedRhs m k n) (prec : Option ContractPrecision)
    (A : FVec Ideal ⟨2, ![m, k]⟩ φ₁) (B : FVec Ideal ⟨2, ![n, k]⟩ φ₂) (p : Fin m) (q : Fin n) :
    matmul d prec A B (constant ⟨2, ![m, n]⟩ .f32 0x00000000#32) (ix2 p q) = ∑ c : Fin k, A (ix2 p c) * B (ix2 q c) := by
  subst hd
  rw [matmul_zero_eq_dotGeneral]
  exact dotGeneral_transposedRhs_apply prec A B p q

/-! ## A column as a row, and the row over every row of a matrix -/

/-- A column `[a, 1]` transposed to the row `[1, a]` reads, at `(u, i)`, the column at `(i, 0)`. -/
theorem transpose_a1_1a_apply {a : ℕ} (v : (⟨2, ![a, 1]⟩ : Shape).Idx → α)
    (h : (⟨2, ![a, 1]⟩ : Shape).Transposes [1, 0] ⟨2, ![1, a]⟩) (u : Fin 1) (i : Fin a) :
    transpose ⟨2, ![1, a]⟩ [1, 0] v h (ix2 u i) = v (ix2 i (0 : Fin 1)) := by
  refine transpose_apply [1, 0] v h (ix2 u i) (ix2 i (0 : Fin 1)) fun b => ?_
  match b with
  | ⟨0, _⟩ =>
    show (0 : ℕ) = u.val
    omega
  | ⟨1, _⟩ => rfl

/-- A row `[1, a]` broadcast over the rows of `[b, a]` reads, at `(p, c)`, the row at `(0, c)`. -/
theorem broadcastTo_1a_ba_apply {a b : ℕ} (v : (⟨2, ![1, a]⟩ : Shape).Idx → α)
    (h : (⟨2, ![1, a]⟩ : Shape).Broadcasts ⟨2, ![b, a]⟩) (p : Fin b) (c : Fin a) :
    broadcastTo ⟨2, ![b, a]⟩ v h (ix2 p c) = v (ix2 (0 : Fin 1) c) := by
  refine broadcastTo_apply v h (ix2 p c) (ix2 (0 : Fin 1) c) fun ax => ?_
  match ax with
  | ⟨0, _⟩ => rfl
  | ⟨1, _⟩ =>
    show c.val = if a = 1 then 0 else c.val
    split
    · have := c.isLt; omega
    · rfl

/-- A column `[a, 1]` reshaped to the vector `[a]` reads, at `i`, the column at `(i, 0)`. -/
theorem shapeCast_a1_a_apply {a : ℕ} (v : (⟨2, ![a, 1]⟩ : Shape).Idx → α) (h : (⟨2, ![a, 1]⟩ : Shape).ShapeCasts ⟨1, ![a]⟩)
    (i : Fin a) : shapeCast ⟨1, ![a]⟩ v h (ix1 i) = v (ix2 i (0 : Fin 1)) :=
  shapeCast_apply v h _ _ (by
    rw [Shape.rowMajor_val_two, Shape.rowMajor_val_one]
    show i.val * 1 + 0 = i.val
    omega)

end Cert.LibTransposedDot

end
-- ==== Proof.KernelIdeal.Payload.lean ====
import proofs.«150913_j67465346285598_1_alg».proof.Proof.Gen.KernelIdeal.Skeleton
import proofs.«150913_j67465346285598_1_alg».proof.Proof.LibTransposedDot
import Idealize.ShloMosaic.PureOps.Ideal.Laws
import Idealize.ShloMosaic.Lib.ValueIdx
import Idealize.ShloMosaic.Lib.Pipeline.Value

/-!
The two bodies' arithmetic read at an index, over the extended reals.

Each body stores `s + a · bᵀ`, the block product contracted along the blocks' last axis added to the accumulator
`s`; the reset stores zeros. A change of float format is the identity on the extended reals.
-/

noncomputable section

namespace Cert.KernelIdeal.Hand

open Idealize.ShloMosaic Idealize.ShloMosaic.ValueIdx
open Cert.KernelIdeal Cert.KernelIdeal.Gen
open scoped BigOperators

/-- The first product's reset stores zeros. -/
theorem k0_pay1_apply (y : S64x9248.Idx) : k0_pay1 (F := Ideal) y = 0 := by
  unfold k0_pay1
  rw [shapeCast_self]
  show Ideal.ofBits .f32 0x00000000#32 = 0
  exact Ideal.ofBits_zero_f32

/-- The first product's update at `(i, k)`: the accumulator plus row `i` of the left block against row `k` of the right. -/
theorem k0_pay2_apply (x : Vec Ideal S64x256 .f32) (w : Vec Ideal S9248x256 .f32) (s : Vec Ideal S64x9248 .f32)
    (i : Fin 64) (k : Fin 9248) :
    k0_pay2 x w s (ix2 i k) = s (ix2 i k) + ∑ l : Fin 256, x (ix2 i l) * w (ix2 k l) := by
  unfold k0_pay2
  rw [shapeCast_self]
  exact congrArg (fun z : EReal => s (ix2 i k) + z)
    (Cert.LibTransposedDot.matmul_transposedRhs_apply dot_S64x256_S9248x256_S64x9248_1_1_0_0_n_n rfl none
      (truncf (F := Ideal) .bf16 x bitsLt_bf16_f32) (truncf (F := Ideal) .bf16 w bitsLt_bf16_f32) i k)

/-- The second product's reset stores zeros. -/
theorem k1_pay1_apply (y : S64x256.Idx) : k1_pay1 (F := Ideal) y = 0 := by
  unfold k1_pay1
  rw [shapeCast_self]
  show Ideal.ofBits .f32 0x00000000#32 = 0
  exact Ideal.ofBits_zero_f32

/-- The second product's update at `(i, j)`: the accumulator plus row `i` of the left operand against row `j` of the
    right block. -/
theorem k1_pay2_apply (x : Vec Ideal S64x9248 .f32) (w : Vec Ideal S256x9248 .f32) (s : Vec Ideal S64x256 .f32)
    (i : Fin 64) (j : Fin 256) :
    k1_pay2 x w s (ix2 i j) = s (ix2 i j) + ∑ k : Fin 9248, x (ix2 i k) * w (ix2 j k) := by
  unfold k1_pay2
  rw [shapeCast_self, shapeCast_self]
  exact congrArg (fun z : EReal => s (ix2 i j) + z)
    (Cert.LibTransposedDot.matmul_transposedRhs_apply dot_S64x9248_S256x9248_S64x256_1_1_0_0_n_n rfl none
      (truncf (F := Ideal) .bf16 x bitsLt_bf16_f32) (truncf (F := Ideal) .bf16 w bitsLt_bf16_f32) i j)

end Cert.KernelIdeal.Hand

end
-- ==== Proof.Spec.lean ====
import Idealize.ShloMosaic.PureOps.Ideal
import Idealize.ShloMosaic.Lib.ValueIdx

/-!
The mathematics of the certificate, over the extended reals.

An activation matrix `x` (64 × 8192) is first multiplied by the transpose of a padding matrix `p` (9248 × 8192),
giving the padded activations (64 × 9248); these are then multiplied by the transpose of a pooling matrix `w`
(8192 × 9248), giving the result (64 × 8192). Both products contract the LAST axis of both operands:

  padded x p (i, k)  = ∑ l, x (i, l) * p (k, l)
  pooled q w (i, j)  = ∑ k, q (i, k) * w (j, k)

and the result is `pooled (padded x p) w`.
-/

noncomputable section

namespace Cert.Spec

open Idealize.ShloMosaic Idealize.ShloMosaic.ValueIdx
open scoped BigOperators

/-- The padded activations: row `i` of `x` against row `k` of `p`. -/
def padded (x : (⟨2, ![64, 8192]⟩ : Shape).Idx → EReal) (p : (⟨2, ![9248, 8192]⟩ : Shape).Idx → EReal) :
    (⟨2, ![64, 9248]⟩ : Shape).Idx → EReal :=
  fun y => ∑ l : Fin 8192, x (ix2 (n0 := 64) (y 0) l) * p (ix2 (n0 := 9248) (y 1) l)

/-- The pooled result: row `i` of the padded activations `q` against row `j` of `w`. -/
def pooled (q : (⟨2, ![64, 9248]⟩ : Shape).Idx → EReal) (w : (⟨2, ![8192, 9248]⟩ : Shape).Idx → EReal) :
    (⟨2, ![64, 8192]⟩ : Shape).Idx → EReal :=
  fun y => ∑ k : Fin 9248, q (ix2 (n0 := 64) (y 0) k) * w (ix2 (n0 := 8192) (y 1) k)

theorem padded_apply (x : (⟨2, ![64, 8192]⟩ : Shape).Idx → EReal) (p : (⟨2, ![9248, 8192]⟩ : Shape).Idx → EReal)
    (i : Fin 64) (k : Fin 9248) : padded x p (ix2 i k) = ∑ l : Fin 8192, x (ix2 i l) * p (ix2 k l) := rfl

theorem pooled_apply (q : (⟨2, ![64, 9248]⟩ : Shape).Idx → EReal) (w : (⟨2, ![8192, 9248]⟩ : Shape).Idx → EReal)
    (i : Fin 64) (j : Fin 8192) : pooled q w (ix2 i j) = ∑ k : Fin 9248, q (ix2 i k) * w (ix2 j k) := rfl

end Cert.Spec

end
-- ==== Proof.LibTileSums.lean ====
import Idealize.ShloMosaic.PureOps.Ideal
import Mathlib.Logic.Equiv.Fin.Basic
import Mathlib.Data.Fintype.BigOperators
import Mathlib.Algebra.BigOperators.Fin

/-!
Sums over the extended reals, reindexed.

Three facts about finite sums in a commutative additive monoid with a multiplication that has a
zero and a one, stated at the extended reals and over plain `Fin`-indexed functions:

* a sum over `A * B` positions is the sum over `A` tiles of the sums over the `B` positions of each
  tile (`sum_tiles`);
* an accumulator that starts from `0 + s 0` and adds `s (j + 1)` at each later step holds the sum of
  the terms seen so far (`fold_eq_sum` and its variants);
* a sum weighted by the indicator of one position picks out that position's term, or is `0` when
  the position lies outside the range (`onehot_sum`, `onehot_sum'`).

Nothing here asks a term to be finite: only associativity and commutativity of `+`, `0 + x = x`,
`0 * x = 0` and `1 * x = x` are used.
-/

namespace Cert.LibTileSums

open scoped BigOperators

/-! ### Tiles -/

/-- Position `r` of tile `i` lies below `A * B`. -/
theorem tile_lt {A B n : ℕ} (h : A * B = n) (i : Fin A) (r : Fin B) : i.val * B + r.val < n := by
  subst h
  calc i.val * B + r.val < i.val * B + B := Nat.add_lt_add_left r.isLt _
    _ = (i.val + 1) * B := (Nat.succ_mul _ _).symm
    _ ≤ A * B := Nat.mul_le_mul_right _ i.isLt

/-- A sum over `n = A * B` positions, tile by tile: tile `i` holds the positions `i * B + r`. -/
theorem sum_tiles {A B n : ℕ} (h : A * B = n) (f : Fin n → EReal) :
    ∑ i : Fin A, ∑ r : Fin B, f ⟨i.val * B + r.val, tile_lt h i r⟩ = ∑ k : Fin n, f k := by
  subst h
  rw [← Fintype.sum_prod_type' (f := fun (i : Fin A) (r : Fin B) =>
        f ⟨i.val * B + r.val, tile_lt rfl i r⟩),
    ← Equiv.sum_comp (finProdFinEquiv (m := A) (n := B)) f]
  refine Finset.sum_congr rfl fun p _ => congrArg f (Fin.ext ?_)
  show p.1.val * B + p.2.val = p.2.val + B * p.1.val
  rw [Nat.mul_comm, Nat.add_comm]

/-- The same with the tile sums named: if `g i` is the sum over tile `i`, the sum of the `g i` is the
    whole sum. -/
theorem sum_tiles_of {A B n : ℕ} (h : A * B = n) (f : Fin n → EReal) (g : Fin A → EReal)
    (hg : ∀ i : Fin A, g i = ∑ r : Fin B, f ⟨i.val * B + r.val, tile_lt h i r⟩) :
    ∑ i : Fin A, g i = ∑ k : Fin n, f k := by
  rw [← sum_tiles h f]
  exact Finset.sum_congr rfl fun i _ => hg i

/-! ### The running sum -/

/-- `0 + x = x`. -/
theorem zero_add_eq (x : EReal) : 0 + x = x := zero_add x

/-- The accumulator by recursion: `0 + s 0` at the first step, the previous value plus the next term
    after it. -/
noncomputable def accum (s : ℕ → EReal) : ℕ → EReal
  | 0 => 0 + s 0
  | j + 1 => accum s j + s (j + 1)

@[simp] theorem accum_zero (s : ℕ → EReal) : accum s 0 = 0 + s 0 := rfl

@[simp] theorem accum_succ (s : ℕ → EReal) (j : ℕ) : accum s (j + 1) = accum s j + s (j + 1) := rfl

/-- The accumulator after step `j` is the sum of the terms `0 … j`. -/
theorem accum_eq_sum (s : ℕ → EReal) (j : ℕ) : accum s j = ∑ k : Fin (j + 1), s k.val := by
  induction j with
  | zero => simp
  | succ j ih =>
    rw [accum_succ, ih, Fin.sum_univ_castSucc (f := fun k : Fin (j + 1 + 1) => s k.val)]
    rfl

/-- Any family that obeys the recursion up to step `m` is the running sum there: if
    `acc 0 = 0 + s 0` and `acc (j + 1) = acc j + s (j + 1)` for `j + 1 < m`, then
    `acc j = ∑ k : Fin (j + 1), s k` for `j < m`. -/
theorem fold_eq_sum (s acc : ℕ → EReal) (m : ℕ) (h0 : acc 0 = 0 + s 0)
    (hs : ∀ j, j + 1 < m → acc (j + 1) = acc j + s (j + 1)) :
    ∀ j, j < m → acc j = ∑ k : Fin (j + 1), s k.val := by
  intro j
  induction j with
  | zero => intro _; rw [h0]; simp
  | succ j ih =>
    intro hj
    rw [hs j hj, ih (Nat.lt_of_succ_lt hj),
      Fin.sum_univ_castSucc (f := fun k : Fin (j + 1 + 1) => s k.val)]
    rfl

/-- The last step of `fold_eq_sum`: after `m + 1` steps the accumulator holds the whole sum. -/
theorem fold_last (s acc : ℕ → EReal) (m : ℕ) (h0 : acc 0 = 0 + s 0)
    (hs : ∀ j, j + 1 < m + 1 → acc (j + 1) = acc j + s (j + 1)) :
    acc m = ∑ k : Fin (m + 1), s k.val :=
  fold_eq_sum s acc (m + 1) h0 hs m (Nat.lt_succ_self m)

/-- The same over `Fin`-indexed steps and terms. -/
theorem fold_fin_eq_sum {m : ℕ} (s acc : Fin (m + 1) → EReal) (h0 : acc 0 = 0 + s 0)
    (hs : ∀ j : Fin m, acc j.succ = acc j.castSucc + s j.succ) :
    acc (Fin.last m) = ∑ k : Fin (m + 1), s k := by
  let s' : ℕ → EReal := fun k => if hk : k < m + 1 then s ⟨k, hk⟩ else 0
  let acc' : ℕ → EReal := fun k => if hk : k < m + 1 then acc ⟨k, hk⟩ else 0
  have h0' : acc' 0 = 0 + s' 0 := by
    simp only [acc', s', Nat.zero_lt_succ, dite_true]
    exact h0
  have hs' : ∀ j, j + 1 < m + 1 → acc' (j + 1) = acc' j + s' (j + 1) := by
    intro j hj
    have hj' : j < m + 1 := Nat.lt_of_succ_lt hj
    simp only [acc', s', hj, hj', dite_true]
    exact hs ⟨j, Nat.lt_of_succ_lt_succ hj⟩
  have h := fold_last s' acc' m h0' hs'
  simp only [acc', s', Nat.lt_succ_self, dite_true] at h
  rw [show Fin.last m = ⟨m, Nat.lt_succ_self m⟩ from rfl, h]
  exact Finset.sum_congr rfl fun k _ => by simp [k.isLt]

/-! ### One position picked out -/

/-- A 32-bit word equals the word of a number below `2 ^ 32` exactly when its value is that number. -/
theorem eq_ofNat_iff (w : BitVec 32) {k : ℕ} (hk : k < 2 ^ 32) :
    w = BitVec.ofNat 32 k ↔ w.toNat = k := by
  constructor
  · intro h; rw [h, BitVec.toNat_ofNat, Nat.mod_eq_of_lt hk]
  · intro h; apply BitVec.eq_of_toNat_eq; rw [h, BitVec.toNat_ofNat, Nat.mod_eq_of_lt hk]

/-- The indicator-weighted sum with the term kept or replaced by `0`: it is the term at the word's
    value when that lies in range, and `0` otherwise. -/
theorem onehot_sum' {n : ℕ} (hn : n ≤ 2 ^ 32) (w : BitVec 32) (h : Fin n → EReal) :
    ∑ k : Fin n, (if w = BitVec.ofNat 32 k.val then h k else 0)
      = if hw : w.toNat < n then h ⟨w.toNat, hw⟩ else 0 := by
  have key : ∀ k : Fin n, w = BitVec.ofNat 32 k.val ↔ w.toNat = k.val := fun k =>
    eq_ofNat_iff w (Nat.lt_of_lt_of_le k.isLt hn)
  by_cases hw : w.toNat < n
  · rw [dif_pos hw, Finset.sum_eq_single (⟨w.toNat, hw⟩ : Fin n)]
    · rw [if_pos ((key _).2 rfl)]
    · intro k _ hk
      rw [if_neg]
      intro hwk
      exact hk (Fin.ext ((key k).1 hwk).symm)
    · intro hmem; exact absurd (Finset.mem_univ _) hmem
  · rw [dif_neg hw]
    refine Finset.sum_eq_zero fun k _ => ?_
    rw [if_neg]
    intro hwk
    exact hw (((key k).1 hwk) ▸ k.isLt)

/-- The indicator-weighted sum with the indicator as a factor `1` or `0`. -/
theorem onehot_sum {n : ℕ} (hn : n ≤ 2 ^ 32) (w : BitVec 32) (h : Fin n → EReal) :
    ∑ k : Fin n, (if w = BitVec.ofNat 32 k.val then (1 : EReal) else 0) * h k
      = if hw : w.toNat < n then h ⟨w.toNat, hw⟩ else 0 := by
  rw [← onehot_sum' hn w h]
  refine Finset.sum_congr rfl fun k _ => ?_
  by_cases hk : w = BitVec.ofNat 32 k.val
  · rw [if_pos hk, if_pos hk, one_mul]
  · rw [if_neg hk, if_neg hk, zero_mul]

/-- The factor on the right. -/
theorem onehot_sum_right {n : ℕ} (hn : n ≤ 2 ^ 32) (w : BitVec 32) (h : Fin n → EReal) :
    ∑ k : Fin n, h k * (if w = BitVec.ofNat 32 k.val then (1 : EReal) else 0)
      = if hw : w.toNat < n then h ⟨w.toNat, hw⟩ else 0 := by
  rw [← onehot_sum hn w h]
  exact Finset.sum_congr rfl fun k _ => mul_comm _ _

end Cert.LibTileSums
-- ==== Proof.KernelIdeal.Value0.lean ====
import proofs.«150913_j67465346285598_1_alg».proof.Proof.KernelIdeal.Region0
import proofs.«150913_j67465346285598_1_alg».proof.Proof.KernelIdeal.Payload
import proofs.«150913_j67465346285598_1_alg».proof.Proof.Spec
import proofs.«150913_j67465346285598_1_alg».proof.Proof.LibTileSums
import Idealize.ShloMosaic.Lib.Pipeline.Value
import Idealize.ShloMosaic.Lib.ValueIdx

/-!
The first product's output array after its region, over the extended reals.

The 32 grid points split the 8192 contracted columns into blocks of 256. Point `t` adds to the accumulator, at
`(i, k)`, the partial product `∑ l < 256, x (i, 256 t + l) * p (k, 256 t + l)`; the accumulator starts from zero, so
after the last point it holds the sum of the 32 partial products, which is the whole contraction
`∑ l < 8192, x (i, l) * p (k, l)` regrouped by blocks. Only the last point writes back, and its one block is the
whole output array.
-/

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

/-! ## Where the blocks sit -/

/-- The printed index maps over the grid: both operands' blocks are at block column `t` of block row `0`; the
    output's one block is at `(0, 0)`. -/
theorem blockIndex0 : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = 0 :=
  (by decide +kernel : ∀ t : Fin grid0.N, _)

/-- Column `l` of block `t` is a column of the operand. -/
theorem col_lt (t : Fin cfg0.N) (l : Fin 256) : t.val * 256 + l.val < 8192 :=
  Cert.LibTileSums.tile_lt (A := 32) (B := 256) (n := 8192) rfl (t.cast N_0) l

/-- The left operand's block at point `t`: element `(i, l)` is `x (i, 256 t + l)`. -/
theorem left_block_apply (c : Dev nD) (t : Fin cfg0.N) (i : Fin 64) (l : Fin 256) :
    (iblk0 V c 0 t : Vec Ideal S64x256 .f32) (ix2 i l)
      = (V c main_arg0 : S64x8192.Idx → EReal) (ix2 i ⟨t.val * 256 + l.val, col_lt t l⟩) := by
  obtain ⟨e0, e1, -⟩ := blockIndex0 t
  unfold iblk0
  rw [View.read_apply]
  show V c main_arg0 _ = V c main_arg0 _
  congr 1
  funext a
  apply Fin.ext
  match a with
  | ⟨0, _⟩ => show win0_0.index t (0 : Fin 2) * 64 + 1 * i.val = i.val; omega
  | ⟨1, _⟩ => show win0_0.index t (1 : Fin 2) * 256 + 1 * l.val = t.val * 256 + l.val; omega

/-- The right operand's block at point `t`: element `(k, l)` is `p (k, 256 t + l)`. -/
theorem right_block_apply (c : Dev nD) (t : Fin cfg0.N) (k : Fin 9248) (l : Fin 256) :
    (iblk0 V c 1 t : Vec Ideal S9248x256 .f32) (ix2 k l)
      = (V c main_arg2 : S9248x8192.Idx → EReal) (ix2 k ⟨t.val * 256 + l.val, col_lt t l⟩) := by
  obtain ⟨-, -, e0, e1, -⟩ := blockIndex0 t
  unfold iblk0
  rw [View.read_apply]
  show V c main_arg2 _ = V c main_arg2 _
  congr 1
  funext a
  apply Fin.ext
  match a with
  | ⟨0, _⟩ => show win0_1.index t (0 : Fin 2) * 9248 + 1 * k.val = k.val; omega
  | ⟨1, _⟩ => show win0_1.index t (1 : Fin 2) * 256 + 1 * l.val = t.val * 256 + l.val; omega

/-! ## The accumulator -/

/-- The partial product of block `b` at `(i, k)`: the 256 columns `256 b … 256 b + 255` of row `i` of `x` against the
    same columns of row `k` of `p` (zero past the last block, so that it is a function of every natural number). -/
def partial0 (x : S64x8192.Idx → EReal) (p : S9248x8192.Idx → EReal) (i : Fin 64) (k : Fin 9248) (b : ℕ) : EReal :=
  if hb : b < 32 then
    ∑ l : Fin 256, x (ix2 i ⟨b * 256 + l.val, Cert.LibTileSums.tile_lt (A := 32) (B := 256) (n := 8192) rfl ⟨b, hb⟩ l⟩)
      * p (ix2 k ⟨b * 256 + l.val, Cert.LibTileSums.tile_lt (A := 32) (B := 256) (n := 8192) rfl ⟨b, hb⟩ l⟩)
  else 0

/-- One update at `(i, k)`: point `t` adds block `t`'s partial product to what the accumulator held. -/
theorem update_apply (c : Dev nD) (t : Fin cfg0.N) (s : Vec Ideal S64x9248 .f32) (i : Fin 64) (k : Fin 9248) :
    k0_pay2 (iblk0 V c 0 t) (iblk0 V c 1 t) s (ix2 i k)
      = s (ix2 i k) + partial0 (V c main_arg0) (V c main_arg2) i k t.val := by
  have ht : t.val < 32 := lt_of_lt_of_eq t.isLt N_0
  refine (k0_pay2_apply _ _ s i k).trans ?_
  unfold partial0
  rw [dif_pos ht]
  refine congrArg (fun z : EReal => s (ix2 i k) + z) (Finset.sum_congr rfl fun l _ => ?_)
  rw [left_block_apply, right_block_apply]

/-- The accumulator after point `n` at `(i, k)`: the partial products of blocks `0 … n`, summed. -/
theorem acc0_apply (c : Dev nD) (i : Fin 64) (k : Fin 9248) (n : ℕ) (h : n < cfg0.N) :
    (acc0 V c n h : Vec Ideal S64x9248 .f32) (ix2 i k)
      = ∑ b : Fin (n + 1), partial0 (V c main_arg0) (V c main_arg2) i k b.val := by
  have hpos : 0 < cfg0.N := Nat.lt_of_le_of_lt (Nat.zero_le _) h
  have key := Cert.LibTileSums.fold_eq_sum (partial0 (V c main_arg0) (V c main_arg2) i k)
    (fun j => if hj : j < cfg0.N then (acc0 V c j hj : Vec Ideal S64x9248 .f32) (ix2 i k) else 0) cfg0.N
    (by
      rw [dif_pos hpos]
      show k0_pay2 (iblk0 V c 0 ⟨0, hpos⟩) (iblk0 V c 1 ⟨0, hpos⟩) (k0_pay1 (F := Ideal)) (ix2 i k) = _
      refine (update_apply V c ⟨0, hpos⟩ _ i k).trans ?_
      rw [k0_pay1_apply])
    (fun j hj => by
      rw [dif_pos hj, dif_pos (Nat.lt_of_succ_lt hj)]
      exact update_apply V c ⟨j + 1, hj⟩ _ i k)
    n h
  rw [dif_pos h] at key
  exact key

/-- The 32 partial products are the sum over all 8192 columns, block by block. -/
theorem sum_partial0 (x : S64x8192.Idx → EReal) (p : S9248x8192.Idx → EReal) (i : Fin 64) (k : Fin 9248) :
    ∑ b : Fin 32, partial0 x p i k b.val = ∑ l : Fin 8192, x (ix2 i l) * p (ix2 k l) :=
  Cert.LibTileSums.sum_tiles_of (A := 32) (B := 256) (n := 8192) rfl
    (fun l => x (ix2 i l) * p (ix2 k l)) (fun b => partial0 x p i k b.val)
    (fun b => by unfold partial0; rw [dif_pos b.isLt])

/-- After the last point the accumulator holds the whole contraction. -/
theorem acc0_last_apply (c : Dev nD) (h : 31 < cfg0.N) (i : Fin 64) (k : Fin 9248) :
    (acc0 V c 31 h : Vec Ideal S64x9248 .f32) (ix2 i k)
      = Cert.Spec.padded (V c main_arg0) (V c main_arg2) (ix2 i k) := by
  rw [acc0_apply, Cert.Spec.padded_apply]
  exact sum_partial0 _ _ i k

/-! ## What is written back, and the array -/

/-- The one write-back, at the last point, writes the padded activations: the output's block is the whole array, and
    the accumulator there holds the whole contraction at every index. -/
theorem flushed0_eq (c : Dev nD) (t : Fin cfg0.N) (hf : (cfg0.win 2).flush t = true) :
    (dat0 (F := Ideal) V c).flushed 2 t
      = ((cfg0.win 2).blk t).view.read (Elt Ideal) (Cert.Spec.padded (V c main_arg0) (V c main_arg2)) := by
  have hN : cfg0.N = 32 := N_0
  have hlast : 31 < cfg0.N := by omega
  have h31 : t.val = 31 := by have := (flush0_2 t).mp hf; have := t.isLt; omega
  obtain rfl : t = ⟨31, hlast⟩ := Fin.ext h31
  obtain ⟨-, -, -, -, e0, e1⟩ := blockIndex0 ⟨31, hlast⟩
  show (cfg0.win 2).cut (grid0.coords ⟨31, hlast⟩) ((dat0 V c).after 2 ⟨31, hlast⟩) = _
  rw [after0_2]
  funext y
  obtain ⟨i, k, rfl⟩ : ∃ (i : Fin 64) (k : Fin 9248), y = ix2 i k := ⟨y 0, y 1, eq_ix2 y⟩
  rw [View.read_apply]
  have hemb : ((cfg0.win 2).blk ⟨31, hlast⟩).view.emb (ix2 i k) = (ix2 i k : S64x9248.Idx) := by
    funext a
    apply Fin.ext
    match a with
    | ⟨0, _⟩ => show win0_2.index ⟨31, hlast⟩ (0 : Fin 2) * 64 + 1 * i.val = i.val; omega
    | ⟨1, _⟩ => show win0_2.index ⟨31, hlast⟩ (1 : Fin 2) * 9248 + 1 * k.val = k.val; omega
  show (acc0 V c 31 hlast : Vec Ideal S64x9248 .f32) (ix2 i k)
    = Cert.Spec.padded (V c main_arg0) (V c main_arg2) (((cfg0.win 2).blk ⟨31, hlast⟩).view.emb (ix2 i k))
  rw [hemb]
  exact acc0_last_apply V c _ i k

/-- An index of the output array is in point `t`'s block iff each coordinate is in the block's range on its axis. -/
theorem mem_block0 (t : Fin cfg0.N) (y : S64x9248.Idx) :
    y ∈ ((cfg0.win 2).blk t).view.set ↔ ∀ a : Fin 2, win0_2.index t a * S64x9248.size a ≤ (y a).val
      ∧ (y a).val < win0_2.index t a * S64x9248.size a + S64x9248.size a := by
  show y ∈ ((View.whole main_v0).slice (win0_2.rect t)).set ↔ _
  rw [View.set_slice_whole, Rect.mem_set_unit]
  exact Iff.rfl

/-- THE ARRAY after the region: the padded activations. Every index lies in the last point's block. -/
theorem final0 (c : Dev nD) :
    (dat0 (F := Ideal) V c).arrAt 2 cfg0.N = Cert.Spec.padded (V c main_arg0) (V c main_arg2) := by
  have hN : cfg0.N = 32 := N_0
  have h31 : 31 < cfg0.N := by omega
  refine (dat0 V c).arrAt_eq_of_cover 2 _ (flushed0_eq V c) fun y => ⟨⟨31, h31⟩, (flush0_2 _).mpr rfl, ?_⟩
  obtain ⟨-, -, -, -, e0, e1⟩ := blockIndex0 ⟨31, h31⟩
  rw [mem_block0]
  intro a
  match a with
  | ⟨0, _⟩ =>
    show win0_2.index ⟨31, h31⟩ (0 : Fin 2) * 64 ≤ (y 0).val ∧ (y 0).val < win0_2.index ⟨31, h31⟩ (0 : Fin 2) * 64 + 64
    have := idx2_lt0 y; omega
  | ⟨1, _⟩ =>
    show win0_2.index ⟨31, h31⟩ (1 : Fin 2) * 9248 ≤ (y 1).val ∧ (y 1).val < win0_2.index ⟨31, h31⟩ (1 : Fin 2) * 9248 + 9248
    have := idx2_lt1 y; omega

end Cert.KernelIdeal.Hand

end
-- ==== Proof.KernelIdeal.Value1.lean ====
import proofs.«150913_j67465346285598_1_alg».proof.Proof.KernelIdeal.Region1
import proofs.«150913_j67465346285598_1_alg».proof.Proof.KernelIdeal.Payload
import proofs.«150913_j67465346285598_1_alg».proof.Proof.Spec
import Idealize.ShloMosaic.Lib.Pipeline.Value
import Idealize.ShloMosaic.Lib.ValueIdx

/-!
The second product's output array, whole.

Point `t` of the 32 points multiplies the whole padded activations `q` (64 × 9248) with rows
`256 t … 256 t + 255` of the pooling matrix `w` (8192 × 9248), contracting the shared last axis, and writes the
64 × 256 result to columns `256 t … 256 t + 255` of the output. Element `(i, j')` of that block is
`0 + ∑ k, q (i, k) * w (256 t + j', k)`, which is `pooled q w (i, 256 t + j')`. The 32 column blocks tile the
8192 columns, so the output array ends holding `pooled q w`.
-/

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

/-- A point of the second product's grid is below 32. -/
theorem point1_lt (t : Fin cfg1.N) : t.val < 32 := lt_of_lt_of_eq t.isLt N_1

/-- The block indices of the three windows, decided over the 32 points: the left operand's block never moves, the
    right operand's block is row block `t`, the output's block is column block `t`. -/
theorem idx_facts1 : ∀ t : Fin cfg1.N,
    win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val :=
  (by decide +kernel : ∀ t : Fin grid1.N, _)

/-- The left operand's block at any point is the whole array. -/
theorem iblk1_0_apply (c : Dev nD) (t : Fin cfg1.N) (i : Fin 64) (k : Fin 9248) :
    (iblk1 V c 0 t : S64x9248.Idx → EReal) (ix2 i k) = (V c main_v0 : S64x9248.Idx → EReal) (ix2 i k) := by
  obtain ⟨e0, e1, -, -, -, -⟩ := idx_facts1 t
  show (V c main_v0 : S64x9248.Idx → EReal) (((cfg1.win 0).blk t).view.emb (ix2 i k)) = _
  have h : ((cfg1.win 0).blk t).view.emb (ix2 i k) = ix2 i k := by
    funext a; apply Fin.ext
    match a with
    | ⟨0, _⟩ => show win1_0.index t (0 : Fin 2) * 64 + 1 * i.val = i.val; omega
    | ⟨1, _⟩ => show win1_0.index t (1 : Fin 2) * 9248 + 1 * k.val = k.val; omega
  rw [h]

/-- The right operand's block at point `t` is rows `256 t … 256 t + 255`. -/
theorem iblk1_1_apply (c : Dev nD) (t : Fin cfg1.N) (j' : Fin 256) (k : Fin 9248) :
    (iblk1 V c 1 t : S256x9248.Idx → EReal) (ix2 j' k)
      = (V c main_arg1 : S8192x9248.Idx → EReal) (ix2 ⟨t.val * 256 + j'.val, by have := point1_lt t; omega⟩ k) := by
  obtain ⟨-, -, e0, e1, -, -⟩ := idx_facts1 t
  show (V c main_arg1 : S8192x9248.Idx → EReal) (((cfg1.win 1).blk t).view.emb (ix2 j' k)) = _
  have h : ((cfg1.win 1).blk t).view.emb (ix2 j' k) = ix2 ⟨t.val * 256 + j'.val, by have := point1_lt t; omega⟩ k := by
    funext a; apply Fin.ext
    match a with
    | ⟨0, _⟩ => show win1_1.index t (0 : Fin 2) * 256 + 1 * j'.val = t.val * 256 + j'.val; omega
    | ⟨1, _⟩ => show win1_1.index t (1 : Fin 2) * 9248 + 1 * k.val = k.val; omega
  rw [h]

/-- What point `t` leaves at `(i, j')` of its output block: element `(i, 256 t + j')` of the pooled result. -/
theorem out1_apply (c : Dev nD) (t : Fin cfg1.N) (i : Fin 64) (j' : Fin 256) :
    (out1 (F := Ideal) V c t : S64x256.Idx → EReal) (ix2 i j')
      = Cert.Spec.pooled (V c main_v0) (V c main_arg1) (ix2 i ⟨t.val * 256 + j'.val, by have := point1_lt t; omega⟩) := by
  unfold out1
  refine (k1_pay2_apply _ _ _ i j').trans ?_
  rw [k1_pay1_apply, zero_add, Cert.Spec.pooled_apply]
  refine Finset.sum_congr rfl fun k _ => ?_
  rw [iblk1_0_apply, iblk1_1_apply]

/-- What point `t` writes back is block `t` of the pooled result. -/
theorem flushed1_eq (c : Dev nD) (t : Fin cfg1.N) :
    (dat1 (F := Ideal) V c).flushed 2 t
      = ((cfg1.win 2).blk t).view.read (Elt Ideal) (Cert.Spec.pooled (V c main_v0) (V c main_arg1)) := by
  show (cfg1.win 2).cut (grid1.coords t) ((dat1 V c).after 2 t) = _
  rw [after1_2]
  obtain ⟨-, -, -, -, e0, e1⟩ := idx_facts1 t
  funext y
  obtain ⟨i, j', rfl⟩ : ∃ (i : Fin 64) (j' : Fin 256), y = ix2 i j' := ⟨y 0, y 1, eq_ix2 y⟩
  show (out1 (F := Ideal) V c t : S64x256.Idx → EReal) (ix2 i j')
    = Cert.Spec.pooled (V c main_v0) (V c main_arg1) (((cfg1.win 2).blk t).view.emb (ix2 i j'))
  have h : ((cfg1.win 2).blk t).view.emb (ix2 i j') = ix2 i ⟨t.val * 256 + j'.val, by have := point1_lt t; omega⟩ := by
    funext a; apply Fin.ext
    match a with
    | ⟨0, _⟩ => show win1_2.index t (0 : Fin 2) * 64 + 1 * i.val = i.val; omega
    | ⟨1, _⟩ => show win1_2.index t (1 : Fin 2) * 256 + 1 * j'.val = t.val * 256 + j'.val; omega
  rw [h]
  exact out1_apply V c t i j'

/-- An index of the output array is in point `t`'s block iff each coordinate is in the block's range on its axis. -/
theorem mem_blk1 (t : Fin cfg1.N) (i : S64x8192.Idx) :
    i ∈ ((cfg1.win 2).blk t).view.set
      ↔ ∀ a : Fin 2, win1_2.index t a * S64x256.size a ≤ (i a).val ∧ (i a).val < win1_2.index t a * S64x256.size a + S64x256.size a := by
  show i ∈ ((View.whole main_v1).slice (win1_2.rect t)).set ↔ _
  rw [View.set_slice_whole, Rect.mem_set_unit]
  exact Iff.rfl

/-- Column `j` of the output lies in column block `j / 256`: the 32 blocks cover the array. -/
theorem cover1 (i : S64x8192.Idx) :
    ∃ t : Fin cfg1.N, (cfg1.win 2).flush t = true ∧ i ∈ ((cfg1.win 2).blk t).view.set := by
  have hi0 : (i 0).val < 64 := (i 0).isLt
  have hi1 : (i 1).val < 8192 := (i 1).isLt
  let t : Fin cfg1.N := ⟨(i 1).val / 256, lt_of_lt_of_eq (by omega) N_1.symm⟩
  have ht : t.val = (i 1).val / 256 := rfl
  obtain ⟨-, -, -, -, e0, e1⟩ := idx_facts1 t
  refine ⟨t, flush1_2 t, ?_⟩
  rw [mem_blk1]
  intro a
  match a with
  | ⟨0, _⟩ => show win1_2.index t (0 : Fin 2) * 64 ≤ (i 0).val ∧ (i 0).val < win1_2.index t (0 : Fin 2) * 64 + 64; omega
  | ⟨1, _⟩ => show win1_2.index t (1 : Fin 2) * 256 ≤ (i 1).val ∧ (i 1).val < win1_2.index t (1 : Fin 2) * 256 + 256; omega

/-- The output array after the second product is the pooled result of the two arrays the region finds. -/
theorem final1 (c : Dev nD) :
    (dat1 (F := Ideal) V c).arrAt 2 cfg1.N = Cert.Spec.pooled (V c main_v0) (V c main_arg1) :=
  (dat1 (F := Ideal) V c).arrAt_eq_of_cover 2 _ (fun t _ => flushed1_eq V c t) cover1

end Cert.KernelIdeal.Hand

end
-- ==== Proof.RefValue.lean ====
import proofs.«150913_j67465346285598_1_alg».proof.Proof.Gen.ReferenceIdeal.Read
import proofs.«150913_j67465346285598_1_alg».proof.Proof.Spec

/-!
The reference, read at an index, is the mathematics of `Cert.Spec`.

The reference transposes the padding matrix and contracts the activations' last axis with the transposed matrix's
first axis, then does the same with the pooling matrix. Read at `(i, j)` this is
`∑ k, (∑ l, x (i, l) * p (k, l)) * w (j, k)`, which is `pooled (padded x p) w` at `(i, j)` term by term: each
transpose only swaps the two coordinates of the index it is read at.
-/

noncomputable section

namespace Cert.RefValue

open Idealize.ShloMosaic Idealize.ShloMosaic.ValueIdx Cert.ReferenceIdeal Cert.ReferenceIdeal.Read
open scoped BigOperators

/-! ## The index functions at an index given by its coordinates -/

/-- The second product's left operand is read at row `i`, column `k`. -/
theorem lidx3_ix2 (i : Fin 64) (j : Fin 8192) (k : Fin 9248) :
    lidx_main_v3 (ix2 i j) k = ix2 i k :=
  funext fun a => Fin.ext (by match a with | ⟨0, _⟩ => rfl | ⟨1, _⟩ => rfl)

/-- The second product's right operand (the transposed pooling matrix) is read at row `k`, column `j`. -/
theorem ridx3_ix2 (i : Fin 64) (j : Fin 8192) (k : Fin 9248) :
    ridx_main_v3 (ix2 i j) k = ix2 k j :=
  funext fun a => Fin.ext (by match a with | ⟨0, _⟩ => rfl | ⟨1, _⟩ => rfl)

/-- The transposed pooling matrix at `(k, j)` is the pooling matrix at `(j, k)`. -/
theorem idx2_ix2 (k : Fin 9248) (j : Fin 8192) :
    idx_main_v2 (ix2 k j) = ix2 j k :=
  funext fun a => Fin.ext (by match a with | ⟨0, _⟩ => rfl | ⟨1, _⟩ => rfl)

/-- The first product's left operand (the activations) is read at row `i`, column `l`. -/
theorem lidx1_ix2 (i : Fin 64) (k : Fin 9248) (l : Fin 8192) :
    lidx_main_v1 (ix2 i k) l = ix2 i l :=
  funext fun a => Fin.ext (by match a with | ⟨0, _⟩ => rfl | ⟨1, _⟩ => rfl)

/-- The first product's right operand (the transposed padding matrix) is read at row `l`, column `k`. -/
theorem ridx1_ix2 (i : Fin 64) (k : Fin 9248) (l : Fin 8192) :
    ridx_main_v1 (ix2 i k) l = ix2 l k :=
  funext fun a => Fin.ext (by match a with | ⟨0, _⟩ => rfl | ⟨1, _⟩ => rfl)

/-- The transposed padding matrix at `(l, k)` is the padding matrix at `(k, l)`. -/
theorem idx0_ix2 (l : Fin 8192) (k : Fin 9248) :
    idx_main_v0 (ix2 l k) = ix2 k l :=
  funext fun a => Fin.ext (by match a with | ⟨0, _⟩ => rfl | ⟨1, _⟩ => rfl)

/-! ## The reference is the pooled padded activations -/

/-- The first product at `(i, k)`: row `i` of the activations against row `k` of the padding matrix. -/
theorem v1_ix2
    (x0 : (⟨S64x8192, .f32⟩ : BufTy).Contents (Elt Ideal))
    (x2 : (⟨S9248x8192, .f32⟩ : BufTy).Contents (Elt Ideal)) (i : Fin 64) (k : Fin 9248) :
    val_main_v1 (F := Ideal) x0 x2 (ix2 i k) = Cert.Spec.padded x0 x2 (ix2 i k) := by
  rw [val_main_v1_apply, Cert.Spec.padded_apply]
  refine Finset.sum_congr rfl fun l _ => ?_
  rw [lidx1_ix2, ridx1_ix2, val_main_v0_apply, idx0_ix2]

/-- The reference's result is `pooled (padded x0 x2) x1`: at `(i, j)` both are
    `∑ k, (∑ l, x0 (i, l) * x2 (k, l)) * x1 (j, k)`. -/
theorem ref_eq
    (x0 : (⟨Cert.ReferenceIdeal.S64x8192, .f32⟩ : BufTy).Contents (Elt Ideal))
    (x1 : (⟨Cert.ReferenceIdeal.S8192x9248, .f32⟩ : BufTy).Contents (Elt Ideal))
    (x2 : (⟨Cert.ReferenceIdeal.S9248x8192, .f32⟩ : BufTy).Contents (Elt Ideal)) :
    Cert.ReferenceIdeal.Read.val_main_v3 (F := Ideal) x0 x1 x2 = Cert.Spec.pooled (Cert.Spec.padded x0 x2) x1 := by
  funext y
  obtain ⟨i, j, rfl⟩ : ∃ (i : Fin 64) (j : Fin 8192), y = ix2 i j := ⟨y 0, y 1, eq_ix2 y⟩
  rw [val_main_v3_apply, Cert.Spec.pooled_apply]
  refine Finset.sum_congr rfl fun k _ => ?_
  rw [lidx3_ix2, ridx3_ix2, val_main_v2_apply, idx2_ix2, v1_ix2]

end Cert.RefValue

end
-- ==== Proof.lean ====
/-
  The certificate: an average pooling written as two matrix products, each `a · bᵀ` (the last axis of both operands
  contracted), against the same two products written with `jnp`.

  The kernel runs two pipelined regions. The first multiplies the activations `x` (64 × 8192) with the transposed
  padding matrix `p` (9248 × 8192), 256 contracted columns per grid point, adding each block product to an accumulator
  that is zeroed at the first point and copied out at the last; the second multiplies the result (64 × 9248) with the
  transposed pooling matrix `w` (8192 × 9248), 256 output columns per grid point, the whole contracted axis at once.
  The reference transposes each matrix and contracts with `dot_general`.

  Over the extended reals both programs compute, at `(i, j)`,
      ∑ k, (∑ l, x (i, l) * p (k, l)) * w (j, k).
  The kernel's first sum arrives as 32 partial sums of 256 terms added in order to a zero; regrouping a finite sum needs
  only that addition is associative and commutative with `0 + a = a`, so no finiteness of the inputs is used.
  A change of float format is the identity over the extended reals, and no operation was rewritten by the
  idealization, so the preservation claim is trivial.

  Each frame (the program runs to the end, faults nowhere, leaves its arguments unchanged) is proved by running the two
  regions one after the other, the first with the accumulator's contents tracked from point to point.
-/
import proofs.«150913_j67465346285598_1_alg».proof.Defs
import proofs.«150913_j67465346285598_1_alg».proof.Proof.Gen.Kernel
import proofs.«150913_j67465346285598_1_alg».proof.Proof.Gen.KernelIdeal
import proofs.«150913_j67465346285598_1_alg».proof.Proof.Gen.ReferenceIdeal
import proofs.«150913_j67465346285598_1_alg».proof.Proof.Gen.Pre_finite_inputs
import proofs.«150913_j67465346285598_1_alg».proof.Proof.Gen.ReferenceIdeal.Run
import proofs.«150913_j67465346285598_1_alg».proof.Proof.Gen.ReferenceIdeal.Read
import proofs.«150913_j67465346285598_1_alg».proof.Proof.Kernel.Run
import proofs.«150913_j67465346285598_1_alg».proof.Proof.KernelIdeal.Run
import proofs.«150913_j67465346285598_1_alg».proof.Proof.KernelIdeal.Value0
import proofs.«150913_j67465346285598_1_alg».proof.Proof.KernelIdeal.Value1
import proofs.«150913_j67465346285598_1_alg».proof.Proof.RefValue
import proofs.«150913_j67465346285598_1_alg».proof.Proof.Spec

noncomputable section

namespace Cert.Proof

open Idealize.ShloMosaic Idealize.ShloMosaic.TcCoe Idealize.SL.Sem

/-- The program as printed runs, and its arguments end unchanged. -/
theorem frame_k : Cert.frame_Kernel := fun m ρ _ => Cert.Kernel.Hand.frame (F := Bits) m ρ

/-- The idealized program runs, and its arguments end unchanged. -/
theorem frame_ki : Cert.frame_KernelIdeal := fun m ρ _ => Cert.KernelIdeal.Hand.frame (F := Ideal) m ρ

/-- The reference runs, and its arguments end unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- Both programs end with `∑ k, (∑ l, x (i, l) * p (k, l)) * w (j, k)` at `(i, j)`. -/
theorem algebraic : Cert.algebraic_KernelIdeal_ReferenceIdeal := by
  intro m ρ m' ρ' _ hagree
  refine ⟨fun c => Cert.Spec.pooled (Cert.Spec.padded (m ((c.tc : Thread Cert.KernelIdeal.nD Cert.KernelIdeal.τ).loc Cert.KernelIdeal.main_arg0))
      (m ((c.tc : Thread Cert.KernelIdeal.nD Cert.KernelIdeal.τ).loc Cert.KernelIdeal.main_arg2)))
      (m ((c.tc : Thread Cert.KernelIdeal.nD Cert.KernelIdeal.τ).loc Cert.KernelIdeal.main_arg1)), ?_, ?_⟩
  · refine (θ_run Cert.KernelIdeal.defs _ _).mono (fun r h c => ⟨(h c).1.trans ?_, (h c).2⟩)
      (Cert.KernelIdeal.Hand.run_main (F := Ideal) m ρ)
    rw [Cert.KernelIdeal.Hand.final1, Cert.KernelIdeal.Hand.V1_main_v0, Cert.KernelIdeal.Hand.final0]
    exact congrArg _ (Cert.KernelIdeal.Hand.W1_main_arg1 m ρ c)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v3_eq, Cert.RefValue.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
